-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048 .f32) (main_arg6 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S8192x2048 .f32) (main_arg1 : FVec F S2048x2048 .f32) (main_arg2 : FVec F S2048x2048 .f32) (main_arg3 : FVec F S2048x2048 .f32) (main_arg4 : FVec F S2048 .f32) (main_arg5 : FVec F S2048 .f32) (main_arg6 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S512x512 : Shape := ⟨2, ![512, 512]⟩
abbrev S1x2048 : Shape := ⟨2, ![1, 2048]⟩
abbrev S512x2048 : Shape := ⟨2, ![512, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x2048, .f32⟩
  | .local _ .vmem, ⟨9, _⟩ => ⟨S512x2048, .f32⟩
  | .local _ .vmem, ⟨10, _⟩ => ⟨S2048x2048, .bf16⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x2048.size a
  hwx0_0 : ∀ i : grid0.Coords, EltTy.bits .f32 = 32 ∨ (Rect.block (s := S2048x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x2048.size a
  hwx0_1 : ∀ i : grid0.Coords, EltTy.bits .f32 = 32 ∨ (Rect.block (s := S2048x2048) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x2048.size a
  hwx0_2 : ∀ i : grid0.Coords, EltTy.bits .f32 = 32 ∨ (Rect.block (s := S2048x2048) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x2048.size a
  hwx0_3 : ∀ i : grid0.Coords, EltTy.bits .bf16 = 32 ∨ (Rect.block (s := S2048x2048) S512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x2048.size a ≤ S8192x2048.size a
  hwx1_5 : ∀ i : grid1.Coords, EltTy.bits .f32 = 32 ∨ (Rect.block (s := S8192x2048) S512x2048.size (cc1_transform_5 i) (hinb1_5 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S512x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S512x256 : Shape := ⟨2, ![512, 256]⟩
abbrev S256x512 : Shape := ⟨2, ![256, 512]⟩
abbrev S1x256 : Shape := ⟨2, ![1, 256]⟩
abbrev S256x256 : Shape := ⟨2, ![256, 256]⟩

abbrev nBuf : Space → Nat
  | .hbm => 31
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S_, .i32⟩
  | .hbm, ⟨11, _⟩ => ⟨S_, .f32⟩
  | .hbm, ⟨12, _⟩ => ⟨S2048, .f32⟩
  | .hbm, ⟨13, _⟩ => ⟨S1x2048, .f32⟩
  | .hbm, ⟨14, _⟩ => ⟨S_, .i32⟩
  | .hbm, ⟨15, _⟩ => ⟨S_, .f32⟩
  | .hbm, ⟨16, _⟩ => ⟨S8192x2048, .f32⟩
  | .hbm, ⟨17, _⟩ => ⟨S2048x2048, .f32⟩
  | .hbm, ⟨18, _⟩ => ⟨S_, .i32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .i32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S_, .i32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S8192x2048, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S256x512, .f32⟩
  | .local _ .vmem, ⟨9, _⟩ => ⟨S256x512, .f32⟩
  | .local _ .vmem, ⟨10, _⟩ => ⟨S512x256, .f32⟩
  | .local _ .vmem, ⟨11, _⟩ => ⟨S512x256, .f32⟩
  | .local _ .vmem, ⟨12, _⟩ => ⟨S1x256, .f32⟩
  | .local _ .vmem, ⟨13, _⟩ => ⟨S1x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_call3_v0 : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_call4_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![32, 8, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  pads_S2048_S2048_000 : S2048.Pads (![0] : Fin 1 → Nat) ![0] ![0] S2048
  h_S_ : 0 < S_.numel
  shapeCasts_S2048_S1x2048 : S2048.ShapeCasts S1x2048
  pads_S8192x2048_S8192x2048_000_000 : S8192x2048.Pads (![0, 0] : Fin 2 → Nat) ![0, 0] ![0, 0] S8192x2048
  transposes_S2048x2048_S2048x2048_1_0 : S2048x2048.Transposes [1, 0] S2048x2048
  pads_S2048x2048_S2048x2048_000_000 : S2048x2048.Pads (![0, 0] : Fin 2 → Nat) ![0, 0] ![0, 0] S2048x2048
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S2048x2048.size a
  hwx0_0 : ∀ i : grid0.Coords, EltTy.bits .f32 = 32 ∨ (Rect.block (s := S2048x2048) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S2048x2048.size a
  hwx0_1 : ∀ i : grid0.Coords, EltTy.bits .f32 = 32 ∨ (Rect.block (s := S2048x2048) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S2048x2048.size a
  hwx0_2 : ∀ i : grid0.Coords, EltTy.bits .f32 = 32 ∨ (Rect.block (s := S2048x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S2048x2048.size a
  hwx0_3 : ∀ i : grid0.Coords, EltTy.bits .f32 = 32 ∨ (Rect.block (s := S2048x2048) S512x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S8192x2048.size a
  hwx1_0 : ∀ i : grid1.Coords, EltTy.bits .f32 = 32 ∨ (Rect.block (s := S8192x2048) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S2048x2048.size a
  hwx1_1 : ∀ i : grid1.Coords, EltTy.bits .f32 = 32 ∨ (Rect.block (s := S2048x2048) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x2048.size a
  hwx1_2 : ∀ i : grid1.Coords, EltTy.bits .f32 = 32 ∨ (Rect.block (s := S1x2048) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S8192x2048.size a
  hwx1_3 : ∀ i : grid1.Coords, EltTy.bits .f32 = 32 ∨ (Rect.block (s := S8192x2048) S256x256.size (cc1_transform_3 i) (hinb1_3 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_v7) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== Proof.Spec.lean ====
/-
  The function both programs compute, on the extended reals, and the one law that joins their two arrangements.

  A linear layer whose weight and bias are sampled by reparameterization: with μ, log σ, ε of shape [2048, 2048]
  (rows: output features, columns: input features) the weight is w[n, k] = μ[n, k] + exp (log σ[n, k]) · ε[n, k],
  the bias b[n] = μ_b[n] + exp (log σ_b[n]) · ε_b[n], and the result y[r, n] = (∑ₖ x[r, k] · w[n, k]) + b[n] for the
  8192 rows of x. One program contracts over all 2048 input features at once; the other adds four partial sums of 512
  features each onto a zero, in order. Addition of extended reals is associative and commutative with neutral 0 at
  every value, the infinities included, so the two agree with no finiteness assumption: nothing here distributes a
  product over a sum.
-/
import Idealize.ShloMosaic.PureOps.Ideal

noncomputable section

open scoped BigOperators

namespace Cert.RandLinear

open Idealize.ShloMosaic

/-- Entry (k, n) of the TRANSPOSED sampled weight: μ[n, k] + exp (log σ[n, k]) · ε[n, k]. -/
def weightT (mu ls eps : Fin 2048 → Fin 2048 → EReal) (k n : Fin 2048) : EReal :=
  mu n k + Ideal.exp (ls n k) * eps n k

/-- Entry n of the sampled bias. -/
def biasOf (mu ls eps : Fin 2048 → EReal) (n : Fin 2048) : EReal :=
  mu n + Ideal.exp (ls n) * eps n

/-- Row r, column n of x · wᵀ + b, for wᵀ given by its entries (k, n). -/
def affine (x : Fin 8192 → Fin 2048 → EReal) (wT : Fin 2048 → Fin 2048 → EReal) (b : Fin 2048 → EReal)
    (r : Fin 8192) (n : Fin 2048) : EReal :=
  (∑ k : Fin 2048, x r k * wT k n) + b n

/-- The whole result array [8192, 2048] from the seven arguments given by their entries. -/
def result (x : Fin 8192 → Fin 2048 → EReal) (mu ls eps : Fin 2048 → Fin 2048 → EReal) (mub lsb epsb : Fin 2048 → EReal) :
    (⟨2, ![8192, 2048]⟩ : Shape).Idx → EReal :=
  fun i => affine x (weightT mu ls eps) (biasOf mub lsb epsb) (i 0) (i 1)

/-- The k-th feature of the j-th block of 512. -/
def feat (j : Fin 4) (k : Fin 512) : Fin 2048 := ⟨512 * j.val + k.val, by have := j.isLt; have := k.isLt; omega⟩

/-- A sum over 2048 features is the four block sums added in order onto zero (in any additive commutative monoid). -/
theorem sum_eq_blocks {M : Type} [AddCommMonoid M] (f : Fin 2048 → M) :
    ∑ k : Fin 2048, f k
      = ((((0 + ∑ k : Fin 512, f (feat 0 k)) + ∑ k : Fin 512, f (feat 1 k)) + ∑ k : Fin 512, f (feat 2 k))
          + ∑ k : Fin 512, f (feat 3 k)) := by
  have h : ∑ k : Fin (512 + 512 + 512 + 512), f k
      = ((∑ k : Fin 512, f (feat 0 k)) + ∑ k : Fin 512, f (feat 1 k)) + (∑ k : Fin 512, f (feat 2 k))
          + ∑ k : Fin 512, f (feat 3 k) := by
    rw [Fin.sum_univ_add, Fin.sum_univ_add, Fin.sum_univ_add]
    refine congrArg₂ (· + ·) (congrArg₂ (· + ·) (congrArg₂ (· + ·) ?_ ?_) ?_) ?_ <;>
      exact Finset.sum_congr rfl fun k _ => congrArg f (Fin.ext (by simp [feat] <;> omega))
  rw [zero_add]
  exact h

end Cert.RandLinear

end
-- ==== Proof.KernelHost.lean ====
import proofs.«182129_g2000205307259551_pallasbulk_1315_2_alg».proof.Proof.Gen.KernelIdeal.Frame
import Idealize.ShloMosaic.Lib.ValueIdx
import Idealize.ShloMosaic.Lib.Pipeline.Value
import Idealize.ShloMosaic.Lib.StableHlo.Run

/-! What the kernel program's one host stretch and its fold of buffer contents say, buffer by buffer.

    The program is: a pipelined region that writes the bf16 matrix `main_v0` from the three f32 matrices
    `main_arg1..3`; three reshapes of the length-2048 vectors `main_arg4..6` to one-row matrices `main_v1..3`; a
    pipelined region that writes the result `main_v4` from `main_arg0`, `main_v0` and the three rows. Here each
    array the second region reads is named in terms of the launch memory `m` and the first region's write-backs,
    and the result is named as the second region's write-backs. -/

set_option maxRecDepth 16384

noncomputable section

namespace Cert.KernelIdeal.Hand

open Idealize.ShloMosaic Idealize.ShloMosaic.TcCoe Idealize.SL.Sem
open Idealize.ShloMosaic.ValueIdx
open Cert.KernelIdeal Cert.KernelIdeal.Gen

variable {F : FTy → Type} [FloatOps F]

variable (m : (ℓ : Loc nD τ sig) → Buf (Elt F) ℓ) (ρ : Dev nD → PrngReg)

/-! ## The result and the first region's output -/

/-- The result array at the end of the run is what the second region's write-backs leave in its output window. -/
theorem W3_result (c : Dev nD) :
    W3 m ρ c (Proc.devRef .tc main_v4) = (dat1 (V2 m ρ) c).arrAt 5 cfg1.N :=
  W3_arr m ρ c 5

/-- No reshape of the host stretch writes a buffer other than the three rows. -/
theorem hostOps1_keeps (c : Dev nD) (b : Ref sig .tc) (h1 : b ≠ main_v1) (h2 : b ≠ main_v2) (h3 : b ≠ main_v3) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2, StableHlo.devRef_ne_of_ne h3⟩))

/-- The bf16 matrix the second region reads is what the first region's write-backs leave in its output window:
    the host stretch between the regions does not write it. -/
theorem V2_w (c : Dev nD) : V2 m ρ c main_v0 = (dat0 (V0 m ρ) c).arrAt 3 cfg0.N :=
  (hostOps1_keeps m ρ c main_v0 (by decide) (by decide) (by decide)).trans (W1_arr m ρ c 3)

/-! ## The arguments as launched -/

/-- The second region reads `main_arg0` as launched: neither the first region nor the host stretch writes it. -/
theorem V2_x (c : Dev nD) : V2 m ρ c main_arg0 = m ((c : Thread nD τ).loc main_arg0) :=
  calc V2 m ρ c main_arg0
    _ = W1 m ρ c (Proc.devRef .tc main_arg0) := hostOps1_keeps m ρ c main_arg0 (by decide) (by decide) (by decide)
    _ = W0 m ρ c (Proc.devRef .tc main_arg0) := W1_of_ne m ρ c main_arg0 (by decide)
    _ = m ((c : Thread nD τ).loc main_arg0) := rfl

/-- The first region reads its three matrices as launched. -/
theorem V0_arg1 (c : Dev nD) : V0 m ρ c main_arg1 = m ((c : Thread nD τ).loc main_arg1) := rfl
theorem V0_arg2 (c : Dev nD) : V0 m ρ c main_arg2 = m ((c : Thread nD τ).loc main_arg2) := rfl
theorem V0_arg3 (c : Dev nD) : V0 m ρ c main_arg3 = m ((c : Thread nD τ).loc main_arg3) := rfl

/-! ## The three reshapes: a one-row matrix read at (0, n) is the vector at n -/

/-- A length-`k` vector cast to a one-row matrix, read at column `n`, is the vector at `n`: the two indices have
    the same row-major position. -/
theorem row_of_vec {α : Type} {k : Nat} (x : (⟨1, ![k]⟩ : Shape).Idx → α)
    (h : (⟨1, ![k]⟩ : Shape).ShapeCasts ⟨2, ![1, k]⟩) (n : Fin k) :
    shapeCast ⟨2, ![1, k]⟩ x h (ix2 (0 : Fin 1) n) = x (ix1 n) :=
  shapeCast_apply x h (ix2 (0 : Fin 1) n) (ix1 n) (by
    rw [Shape.rowMajor_val_one, Shape.rowMajor_val_two]; show n.val = 0 * k + n.val; omega)

/-- The first row the second region reads is `main_arg4` as launched. -/
theorem V2_v1 (c : Dev nD) (n : Fin 2048) :
    (V2 m ρ c main_v1 : S1x2048.Idx → Elt F .f32) (ix2 (0 : Fin 1) n)
      = (m ((c : Thread nD τ).loc main_arg4) : S2048.Idx → Elt F .f32) (ix1 n) := by
  have e : (V2 m ρ c main_v1 : S1x2048.Idx → Elt F .f32)
      = shapeCast S1x2048 (W1 m ρ c (Proc.devRef .tc main_arg4) : S2048.Idx → Elt F .f32) shapeCasts_S2048_S1x2048 := by
    show StableHlo.after hostOps1 _ (Proc.devRef .tc main_v1) = _
    after_results
    rfl
  rw [e, row_of_vec]
  exact congrFun (W1_of_ne m ρ c main_arg4 (by decide)) (ix1 n)

/-- The second row the second region reads is `main_arg5` as launched. -/
theorem V2_v2 (c : Dev nD) (n : Fin 2048) :
    (V2 m ρ c main_v2 : S1x2048.Idx → Elt F .f32) (ix2 (0 : Fin 1) n)
      = (m ((c : Thread nD τ).loc main_arg5) : S2048.Idx → Elt F .f32) (ix1 n) := by
  have e : (V2 m ρ c main_v2 : S1x2048.Idx → Elt F .f32)
      = shapeCast S1x2048 (W1 m ρ c (Proc.devRef .tc main_arg5) : S2048.Idx → Elt F .f32) shapeCasts_S2048_S1x2048 := by
    show StableHlo.after hostOps1 _ (Proc.devRef .tc main_v2) = _
    after_results
    rfl
  rw [e, row_of_vec]
  exact congrFun (W1_of_ne m ρ c main_arg5 (by decide)) (ix1 n)

/-- The third row the second region reads is `main_arg6` as launched. -/
theorem V2_v3 (c : Dev nD) (n : Fin 2048) :
    (V2 m ρ c main_v3 : S1x2048.Idx → Elt F .f32) (ix2 (0 : Fin 1) n)
      = (m ((c : Thread nD τ).loc main_arg6) : S2048.Idx → Elt F .f32) (ix1 n) := by
  have e : (V2 m ρ c main_v3 : S1x2048.Idx → Elt F .f32)
      = shapeCast S1x2048 (W1 m ρ c (Proc.devRef .tc main_arg6) : S2048.Idx → Elt F .f32) shapeCasts_S2048_S1x2048 := by
    show StableHlo.after hostOps1 _ (Proc.devRef .tc main_v3) = _
    after_results
    rfl
  rw [e, row_of_vec]
  exact congrFun (W1_of_ne m ρ c main_arg6 (by decide)) (ix1 n)

end Cert.KernelIdeal.Hand

end
-- ==== Proof.KernelReparam.lean ====
import proofs.«182129_g2000205307259551_pallasbulk_1315_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! # The first region at the ideal values: the reparametrised weight, transposed

The first region of the program walks a 4 × 4 grid of 512 × 512 blocks. At grid point (a, b) it reads block (a, b) of the mean
`μ`, the log-deviation `λ` and the noise `ε` (each 2048 × 2048), forms `μ + exp λ · ε` entry by entry, transposes the
block and writes it to block (b, a) of the result. Over the extended reals the narrowing to bf16 is the identity, so
the result array holds, at (k, n), the value `μ(n, k) + exp (λ(n, k)) · ε(n, k)`: the transpose of the reparametrised
weight. This file proves that, for any contents of the buffers when the region is entered. -/

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx

variable (V : (c : Dev nD) → (b : Ref sig .tc) → Buf (Elt Ideal) ((c : Thread nD τ).loc b))

/-- A whole block is accessed at offsets (0, 0): the zero function. -/
theorem offsets_zero : (![0, 0] : Fin 2 → Nat) = fun _ => 0 := funext fun a => by fin_cases a <;> rfl

/-- The transposed reparametrised weight: at (k, n), the mean plus the exponential of the log-deviation times the
    noise, each read at (n, k). -/
abbrev reparamT (mu ls ep : S2048x2048.Idx → EReal) : S2048x2048.Idx → EReal := fun i =>
  mu (ix2 (i 1 : Fin 2048) (i 0 : Fin 2048))
    + Ideal.exp (ls (ix2 (i 1 : Fin 2048) (i 0 : Fin 2048))) * ep (ix2 (i 1 : Fin 2048) (i 0 : Fin 2048))

/-- The body's stored value at (p, q) of its block: the three loaded blocks combined at (q, p). The narrowing is the
    identity at the ideal values and the transpose swaps the two coordinates. -/
theorem reparam_pay_apply (x0 x1 x2 : FVec Ideal S512x512 .f32) (p q : Fin 512) :
    k0_pay1 (F := Ideal) x0 x1 x2 (ix2 p q) = x0 (ix2 q p) + Ideal.exp (x1 (ix2 q p)) * x2 (ix2 q p) := by
  unfold k0_pay1
  show transpose S512x512 [1, 0] (addf x0 (mulf (exp x1) x2)) transposes_S512x512_p1_0_S512x512 (ix2 p q) = _
  exact (transpose_ix2_apply _ transposes_S512x512_p1_0_S512x512 p q).trans rfl

/-- The printed index maps, decided over the 16 grid points: each input's block index is the output's with the two
    axes exchanged, and the output's block indices are below 4. -/
theorem reparam_idx : ∀ t : Fin cfg0.N,
    win0_0.index t (0 : Fin 2) = win0_3.index t (1 : Fin 2) ∧ win0_0.index t (1 : Fin 2) = win0_3.index t (0 : Fin 2)
    ∧ win0_1.index t (0 : Fin 2) = win0_3.index t (1 : Fin 2) ∧ win0_1.index t (1 : Fin 2) = win0_3.index t (0 : Fin 2)
    ∧ win0_2.index t (0 : Fin 2) = win0_3.index t (1 : Fin 2) ∧ win0_2.index t (1 : Fin 2) = win0_3.index t (0 : Fin 2)
    ∧ win0_3.index t (0 : Fin 2) ≤ 3 ∧ win0_3.index t (1 : Fin 2) ≤ 3 :=
  (by decide +kernel : ∀ t : Fin grid0.N, _)

/-- Every block of the result is some grid point's. -/
theorem reparam_onto : ∀ (a b : Fin 4), ∃ t : Fin cfg0.N, win0_3.index t = ![a.val, b.val] :=
  (by decide +kernel : ∀ (a b : Fin 4), ∃ t : Fin grid0.N, win0_3.index t = ![a.val, b.val])

/-- An input block at a point is the array read where the block sits: local index `y` of window `w`'s block at `t` is
    the array's index whose coordinate on each axis is the block index times 512 plus `y`'s. Window 0 (the mean). -/
theorem reparam_in0 (c : Dev nD) (t : Fin cfg0.N) (y : S512x512.Idx) (i : S2048x2048.Idx)
    (h0 : (i 0).val = win0_0.index t (0 : Fin 2) * 512 + (y 0).val)
    (h1 : (i 1).val = win0_0.index t (1 : Fin 2) * 512 + (y 1).val) :
    (iblk0 V c 0 t : FVec Ideal S512x512 .f32) y = (V c main_arg1 : S2048x2048.Idx → EReal) i := by
  unfold iblk0
  rw [View.read_apply]
  show V c main_arg1 _ = V c main_arg1 i
  congr 1
  funext a
  apply Fin.ext
  match a with
  | ⟨0, _⟩ => show win0_0.index t (0 : Fin 2) * 512 + 1 * (y 0).val = (i 0).val; omega
  | ⟨1, _⟩ => show win0_0.index t (1 : Fin 2) * 512 + 1 * (y 1).val = (i 1).val; omega

/-- Window 1 (the log-deviation). -/
theorem reparam_in1 (c : Dev nD) (t : Fin cfg0.N) (y : S512x512.Idx) (i : S2048x2048.Idx)
    (h0 : (i 0).val = win0_1.index t (0 : Fin 2) * 512 + (y 0).val)
    (h1 : (i 1).val = win0_1.index t (1 : Fin 2) * 512 + (y 1).val) :
    (iblk0 V c 1 t : FVec Ideal S512x512 .f32) y = (V c main_arg2 : S2048x2048.Idx → EReal) i := by
  unfold iblk0
  rw [View.read_apply]
  show V c main_arg2 _ = V c main_arg2 i
  congr 1
  funext a
  apply Fin.ext
  match a with
  | ⟨0, _⟩ => show win0_1.index t (0 : Fin 2) * 512 + 1 * (y 0).val = (i 0).val; omega
  | ⟨1, _⟩ => show win0_1.index t (1 : Fin 2) * 512 + 1 * (y 1).val = (i 1).val; omega

/-- Window 2 (the noise). -/
theorem reparam_in2 (c : Dev nD) (t : Fin cfg0.N) (y : S512x512.Idx) (i : S2048x2048.Idx)
    (h0 : (i 0).val = win0_2.index t (0 : Fin 2) * 512 + (y 0).val)
    (h1 : (i 1).val = win0_2.index t (1 : Fin 2) * 512 + (y 1).val) :
    (iblk0 V c 2 t : FVec Ideal S512x512 .f32) y = (V c main_arg3 : S2048x2048.Idx → EReal) i := by
  unfold iblk0
  rw [View.read_apply]
  show V c main_arg3 _ = V c main_arg3 i
  congr 1
  funext a
  apply Fin.ext
  match a with
  | ⟨0, _⟩ => show win0_2.index t (0 : Fin 2) * 512 + 1 * (y 0).val = (i 0).val; omega
  | ⟨1, _⟩ => show win0_2.index t (1 : Fin 2) * 512 + 1 * (y 1).val = (i 1).val; omega

/-- One block of the result, over any three loaded blocks and any placement `emb` of the block in the result array:
    if each loaded block at (q, p) is its array at the placement of (p, q) with the two coordinates exchanged, the stored
    block is the transposed reparametrised weight read through the placement. -/
theorem reparam_block (mu ls ep : S2048x2048.Idx → EReal) (x0 x1 x2 : FVec Ideal S512x512 .f32)
    (emb : S512x512.Idx → S2048x2048.Idx)
    (h0 : ∀ p q : Fin 512, x0 (ix2 q p) = mu (ix2 ((emb (ix2 p q)) 1 : Fin 2048) ((emb (ix2 p q)) 0 : Fin 2048)))
    (h1 : ∀ p q : Fin 512, x1 (ix2 q p) = ls (ix2 ((emb (ix2 p q)) 1 : Fin 2048) ((emb (ix2 p q)) 0 : Fin 2048)))
    (h2 : ∀ p q : Fin 512, x2 (ix2 q p) = ep (ix2 ((emb (ix2 p q)) 1 : Fin 2048) ((emb (ix2 p q)) 0 : Fin 2048))) :
    k0_pay1 (F := Ideal) x0 x1 x2 = fun y => reparamT mu ls ep (emb y) := by
  funext y
  obtain ⟨p, q, rfl⟩ : ∃ (p q : Fin 512), y = ix2 p q := ⟨y 0, y 1, eq_ix2 y⟩
  rw [reparam_pay_apply, h0 p q, h1 p q, h2 p q]

/-- WHAT POINT `t` WRITES BACK: block `t` of the transposed reparametrised weight of the three arrays as the region
    finds them. The output's block (b, a) takes input blocks (a, b), and the transpose inside the block exchanges the
    local coordinates, so both coordinates of the array index are exchanged. -/
theorem reparam_flushed (c : Dev nD) (t : Fin cfg0.N) :
    (dat0 (F := Ideal) V c).flushed 3 t
      = ((cfg0.win 3).blk t).view.read (Elt Ideal) (reparamT (V c main_arg1) (V c main_arg2) (V c main_arg3)) := by
  show (cfg0.win 3).cut (grid0.coords t) ((dat0 V c).after 3 t) = _
  rw [after0_3]
  unfold out0_3
  rw [View.canon_unit_zero offsets_zero]
  simp only [View.ld_unit_zero (S := S512x512) offsets_zero]
  obtain ⟨e00, e01, e10, e11, e20, e21, b0, b1⟩ := reparam_idx t
  refine (reparam_block (V c main_arg1) (V c main_arg2) (V c main_arg3) (iblk0 V c 0 t) (iblk0 V c 1 t) (iblk0 V c 2 t)
    (((cfg0.win 3).blk t).view.emb) ?_ ?_ ?_).trans ?_
  · intro p q
    refine reparam_in0 V c t (ix2 q p) _ ?_ ?_
    · show win0_3.index t (1 : Fin 2) * 512 + 1 * q.val = win0_0.index t (0 : Fin 2) * 512 + q.val; omega
    · show win0_3.index t (0 : Fin 2) * 512 + 1 * p.val = win0_0.index t (1 : Fin 2) * 512 + p.val; omega
  · intro p q
    refine reparam_in1 V c t (ix2 q p) _ ?_ ?_
    · show win0_3.index t (1 : Fin 2) * 512 + 1 * q.val = win0_1.index t (0 : Fin 2) * 512 + q.val; omega
    · show win0_3.index t (0 : Fin 2) * 512 + 1 * p.val = win0_1.index t (1 : Fin 2) * 512 + p.val; omega
  · intro p q
    refine reparam_in2 V c t (ix2 q p) _ ?_ ?_
    · show win0_3.index t (1 : Fin 2) * 512 + 1 * q.val = win0_2.index t (0 : Fin 2) * 512 + q.val; omega
    · show win0_3.index t (0 : Fin 2) * 512 + 1 * p.val = win0_2.index t (1 : Fin 2) * 512 + p.val; omega
  · funext y
    rfl

/-- An index of the result array is in point `t`'s block iff each coordinate is in the block's range on its axis. -/
theorem reparam_mem_blk (t : Fin cfg0.N) (i : S2048x2048.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v0).slice (win0_3.rect t)).set ↔ _
  rw [View.set_slice_whole, Rect.mem_set_unit]
  exact Iff.rfl

/-- The 16 blocks tile the result: index (r, s) lies in the block with block index (r / 512, s / 512), which some grid
    point writes back. -/
theorem reparam_cover (i : S2048x2048.Idx) :
    ∃ t : Fin cfg0.N, (cfg0.win 3).flush t = true ∧ i ∈ ((cfg0.win 3).blk t).view.set := by
  have hi0 : (i 0).val < 2048 := (i 0).isLt
  have hi1 : (i 1).val < 2048 := (i 1).isLt
  obtain ⟨t, ht⟩ := reparam_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [reparam_mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- THE RESULT ARRAY after the region: the transposed reparametrised weight of the three arrays as the region finds
    them. -/
theorem reparam_final (c : Dev nD) :
    (dat0 (F := Ideal) V c).arrAt 3 cfg0.N = reparamT (V c main_arg1) (V c main_arg2) (V c main_arg3) :=
  (dat0 (F := Ideal) V c).arrAt_eq_of_cover 3 (reparamT (V c main_arg1) (V c main_arg2) (V c main_arg3))
    (fun t _ => reparam_flushed V c t) reparam_cover

/-- The spec at an index: the two coordinates exchanged. -/
theorem reparamT_apply (mu ls ep : S2048x2048.Idx → EReal) (k n : Fin 2048) :
    reparamT mu ls ep (ix2 k n) = mu (ix2 n k) + Ideal.exp (ls (ix2 n k)) * ep (ix2 n k) := rfl

/-- The first region's value, entry by entry: at (k, n) the result holds the mean plus the exponential of the
    log-deviation times the noise, each read at (n, k). The three arrays are named as functions to the extended reals
    (`hmu`, `hls`, `hep`: by `rfl`). -/
theorem reparam_value (c : Dev nD) (mu ls ep : S2048x2048.Idx → EReal)
    (hmu : V c main_arg1 = mu) (hls : V c main_arg2 = ls) (hep : V c main_arg3 = ep) (k n : Fin 2048) :
    (dat0 (F := Ideal) V c).arrAt 3 cfg0.N (ix2 k n) = mu (ix2 n k) + Ideal.exp (ls (ix2 n k)) * ep (ix2 n k) := by
  subst hmu hls hep
  rw [reparam_final]

end Cert.KernelIdeal.Hand

end
-- ==== Proof.KernelMatmul.lean ====
import proofs.«182129_g2000205307259551_pallasbulk_1315_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! # The second region at the ideal values: rows times the weight, plus the bias row

The second region of the program walks 16 grid points. At point `s` it reads rows `512 s … 512 s + 511` of the input `x`
(8192 × 2048), the whole weight `w` (2048 × 2048, the first region's result) and three one-row arrays `β₀, β₁, β₂`
(1 × 2048), and writes the same rows of the result: the block product `x · w` accumulated into zeros, plus the row
`β₀ + exp β₁ · β₂` laid along every row. Over the extended reals the narrowing of `x` to bf16 is the identity, so the
result array holds, at (b, n), `∑ₖ x(b, k) · w(k, n) + (β₀(0, n) + exp (β₁(0, n)) · β₂(0, n))`. This file proves that, for
any contents of the buffers when the region is entered. -/

noncomputable section

open Idealize.ShloMosaic Idealize.ShloMosaic.TcCoe Idealize.SL.Sem
open Idealize.ShloMosaic.Pipeline (Dat)
open scoped BigOperators

namespace Cert.KernelIdeal.Hand

open Cert.KernelIdeal Cert.KernelIdeal.Gen
open Idealize.ShloMosaic.ValueIdx

variable (V : (c : Dev nD) → (b : Ref sig .tc) → Buf (Elt Ideal) ((c : Thread nD τ).loc b))

/-- A whole block is accessed at offsets (0, 0): the zero function. -/
theorem mm_offsets_zero : (![0, 0] : Fin 2 → Nat) = fun _ => 0 := funext fun a => by fin_cases a <;> rfl

/-- The linear layer: at (b, n), row `b` of the input against column `n` of the weight, plus the bias row at `n`. -/
abbrev matmulBias (x : S8192x2048.Idx → EReal) (w : S2048x2048.Idx → EReal) (b0 b1 b2 : S1x2048.Idx → EReal) :
    S8192x2048.Idx → EReal := fun i =>
  (∑ k : Fin 2048, x (ix2 (i 0 : Fin 8192) k) * w (ix2 k (i 1 : Fin 2048)))
    + (b0 (ix2 (0 : Fin 1) (i 1 : Fin 2048))
        + Ideal.exp (b1 (ix2 (0 : Fin 1) (i 1 : Fin 2048))) * b2 (ix2 (0 : Fin 1) (i 1 : Fin 2048)))

/-! ## The block product at an index

The product's dimension numbers contract the left operand's axis 1 with the right operand's axis 0; the left's axis 0
and the right's axis 1 are the result's two axes. Each operand index, axis by axis: -/

/-- The left operand's row is the result's row. -/
theorem mm_lhs_row (j : S512x2048.Idx) (q : dot_S512x2048_S2048x2048_S512x2048_1_0_0_1_n_n.contr.Idx) :
    (dot_S512x2048_S2048x2048_S512x2048_1_0_0_1_n_n.lhsIdx j q 0).val = (j 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl

/-- The left operand's column is the contraction position. -/
theorem mm_lhs_col (j : S512x2048.Idx) (q : dot_S512x2048_S2048x2048_S512x2048_1_0_0_1_n_n.contr.Idx) :
    (dot_S512x2048_S2048x2048_S512x2048_1_0_0_1_n_n.lhsIdx j q 1).val = (q ⟨0, by decide⟩).val :=
  dot_S512x2048_S2048x2048_S512x2048_1_0_0_1_n_n.lhsIdx_val_of_single rfl j q

/-- The right operand's row is the contraction position. -/
theorem mm_rhs_row (j : S512x2048.Idx) (q : dot_S512x2048_S2048x2048_S512x2048_1_0_0_1_n_n.contr.Idx) :
    (dot_S512x2048_S2048x2048_S512x2048_1_0_0_1_n_n.rhsIdx j q 0).val = (q ⟨0, by decide⟩).val :=
  dot_S512x2048_S2048x2048_S512x2048_1_0_0_1_n_n.rhsIdx_val_of_single rfl j q

/-- The right operand's column is the result's column. -/
theorem mm_rhs_col (j : S512x2048.Idx) (q : dot_S512x2048_S2048x2048_S512x2048_1_0_0_1_n_n.contr.Idx) :
    (dot_S512x2048_S2048x2048_S512x2048_1_0_0_1_n_n.rhsIdx j q 1).val = (j 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

/-- The block product into zeros, at (r, n): the sum over the 2048 contraction positions of the left operand's row `r`
    times the right operand's column `n`. The sum over the contraction shape's one-axis indices is re-indexed by the
    position itself. -/
theorem mm_apply (A : FVec Ideal S512x2048 .bf16) (B : FVec Ideal S2048x2048 .bf16) (r : Fin 512) (n : Fin 2048) :
    matmul dot_S512x2048_S2048x2048_S512x2048_1_0_0_1_n_n none A B (constant (F := Ideal) S512x2048 .f32 0x00000000#32) (ix2 r n)
      = ∑ k : Fin 2048, A (ix2 r k) * B (ix2 k n) := by
  show FloatOps.matmul dot_S512x2048_S2048x2048_S512x2048_1_0_0_1_n_n none A B (constant (F := Ideal) S512x2048 .f32 0x00000000#32) (ix2 r n) = _
  rw [Ideal.matmul_constant_zero_apply, ← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have hl : dot_S512x2048_S2048x2048_S512x2048_1_0_0_1_n_n.lhsIdx (ix2 r n) ((contrEquiv1 dot_S512x2048_S2048x2048_S512x2048_1_0_0_1_n_n 2048 rfl rfl).symm k) = ix2 r k :=
    funext fun a => Fin.ext (by
      match a with
      | ⟨0, _⟩ => exact mm_lhs_row _ _
      | ⟨1, _⟩ => exact (mm_lhs_col _ _).trans hk)
  have hr : dot_S512x2048_S2048x2048_S512x2048_1_0_0_1_n_n.rhsIdx (ix2 r n) ((contrEquiv1 dot_S512x2048_S2048x2048_S512x2048_1_0_0_1_n_n 2048 rfl rfl).symm k) = ix2 k n :=
    funext fun a => Fin.ext (by
      match a with
      | ⟨0, _⟩ => exact (mm_rhs_row _ _).trans hk
      | ⟨1, _⟩ => exact mm_rhs_col _ _)
  rw [hl, hr]

/-- The body's stored value at (r, n) of its block: the loaded rows against the loaded weight's column `n`, plus the
    bias row at `n`. The narrowing and the same-shape casts are identities; the bias row is laid along every row. -/
theorem matmul_pay_apply (x : FVec Ideal S512x2048 .f32) (w : FVec Ideal S2048x2048 .bf16) (b0 b1 b2 : FVec Ideal S1x2048 .f32)
    (r : Fin 512) (n : Fin 2048) :
    k1_pay1 (F := Ideal) x w b0 b1 b2 (ix2 r n)
      = (∑ k : Fin 2048, x (ix2 r k) * w (ix2 k n))
        + (b0 (ix2 (0 : Fin 1) n) + Ideal.exp (b1 (ix2 (0 : Fin 1) n)) * b2 (ix2 (0 : Fin 1) n)) := by
  unfold k1_pay1
  show matmul dot_S512x2048_S2048x2048_S512x2048_1_0_0_1_n_n none (truncf .bf16 x bitsLt_bf16_f32)
        (shapeCast S2048x2048 w shapeCasts_S2048x2048_S2048x2048) (constant (F := Ideal) S512x2048 .f32 0x00000000#32) (ix2 r n)
      + broadcastTo S512x2048 (addf (shapeCast S1x2048 b0 shapeCasts_S1x2048_S1x2048)
          (mulf (exp (shapeCast S1x2048 b1 shapeCasts_S1x2048_S1x2048)) (shapeCast S1x2048 b2 shapeCasts_S1x2048_S1x2048)))
          broadcasts_S1x2048_S512x2048 (ix2 r n) = _
  rw [shapeCast_self, shapeCast_self, shapeCast_self, shapeCast_self]
  refine congrArg₂ (· + ·) ?_ ?_
  · exact mm_apply (truncf .bf16 x bitsLt_bf16_f32) w r n
  · exact (broadcastTo_1b_ab_apply _ broadcasts_S1x2048_S512x2048 r n).trans rfl

/-- The printed index maps, decided over the 16 grid points: the input rows' block index is the output rows' (and
    below 16), both column block indices are 0, and the whole-array windows sit at block (0, 0). -/
theorem matmul_idx : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 15 ∧ win1_5.index t (1 : Fin 2) = 0 :=
  (by decide +kernel : ∀ t : Fin grid1.N, _)

/-- Every block of rows of the result is some grid point's. -/
theorem matmul_onto : ∀ a : Fin 16, ∃ t : Fin cfg1.N, win1_5.index t = ![a.val, 0] :=
  (by decide +kernel : ∀ a : Fin 16, ∃ t : Fin grid1.N, win1_5.index t = ![a.val, 0])

/-! ## The windows' blocks, read off the arrays

Local index `y` of a window's block at point `t` is the array's index whose coordinate on each axis is the block index
times the block's extent plus `y`'s. -/

/-- Window 0 (the input rows): 512 rows of the [8192, 2048] input. -/
theorem matmul_in0 (c : Dev nD) (t : Fin cfg1.N) (y : S512x2048.Idx) (i : S8192x2048.Idx)
    (h0 : (i 0).val = win1_0.index t (0 : Fin 2) * 512 + (y 0).val)
    (h1 : (i 1).val = win1_0.index t (1 : Fin 2) * 2048 + (y 1).val) :
    (iblk1 V c 0 t : FVec Ideal S512x2048 .f32) y = (V c main_arg0 : S8192x2048.Idx → EReal) i := by
  unfold iblk1
  rw [View.read_apply]
  show V c main_arg0 _ = V c main_arg0 i
  congr 1
  funext a
  apply Fin.ext
  match a with
  | ⟨0, _⟩ => show win1_0.index t (0 : Fin 2) * 512 + 1 * (y 0).val = (i 0).val; omega
  | ⟨1, _⟩ => show win1_0.index t (1 : Fin 2) * 2048 + 1 * (y 1).val = (i 1).val; omega

/-- Window 1 (the weight): its one block is the whole [2048, 2048] array. -/
theorem matmul_in1 (c : Dev nD) (t : Fin cfg1.N) (y : S2048x2048.Idx) (i : S2048x2048.Idx)
    (h0 : (i 0).val = win1_1.index t (0 : Fin 2) * 2048 + (y 0).val)
    (h1 : (i 1).val = win1_1.index t (1 : Fin 2) * 2048 + (y 1).val) :
    (iblk1 V c 1 t : FVec Ideal S2048x2048 .bf16) y = (V c main_v0 : S2048x2048.Idx → EReal) i := by
  unfold iblk1
  rw [View.read_apply]
  show V c main_v0 _ = V c main_v0 i
  congr 1
  funext a
  apply Fin.ext
  match a with
  | ⟨0, _⟩ => show win1_1.index t (0 : Fin 2) * 2048 + 1 * (y 0).val = (i 0).val; omega
  | ⟨1, _⟩ => show win1_1.index t (1 : Fin 2) * 2048 + 1 * (y 1).val = (i 1).val; omega

/-- Window 2 (the first bias row): its one block is the whole row array. -/
theorem matmul_in2 (c : Dev nD) (t : Fin cfg1.N) (y : S1x2048.Idx) (i : S1x2048.Idx)
    (h0 : (i 0).val = win1_2.index t (0 : Fin 2) * 1 + (y 0).val)
    (h1 : (i 1).val = win1_2.index t (1 : Fin 2) * 2048 + (y 1).val) :
    (iblk1 V c 2 t : FVec Ideal S1x2048 .f32) y = (V c main_v1 : S1x2048.Idx → EReal) i := by
  unfold iblk1
  rw [View.read_apply]
  show V c main_v1 _ = V c main_v1 i
  congr 1
  funext a
  apply Fin.ext
  match a with
  | ⟨0, _⟩ => show win1_2.index t (0 : Fin 2) * 1 + 1 * (y 0).val = (i 0).val; omega
  | ⟨1, _⟩ => show win1_2.index t (1 : Fin 2) * 2048 + 1 * (y 1).val = (i 1).val; omega

/-- Window 3 (the second bias row): its one block is the whole row array. -/
theorem matmul_in3 (c : Dev nD) (t : Fin cfg1.N) (y : S1x2048.Idx) (i : S1x2048.Idx)
    (h0 : (i 0).val = win1_3.index t (0 : Fin 2) * 1 + (y 0).val)
    (h1 : (i 1).val = win1_3.index t (1 : Fin 2) * 2048 + (y 1).val) :
    (iblk1 V c 3 t : FVec Ideal S1x2048 .f32) y = (V c main_v2 : S1x2048.Idx → EReal) i := by
  unfold iblk1
  rw [View.read_apply]
  show V c main_v2 _ = V c main_v2 i
  congr 1
  funext a
  apply Fin.ext
  match a with
  | ⟨0, _⟩ => show win1_3.index t (0 : Fin 2) * 1 + 1 * (y 0).val = (i 0).val; omega
  | ⟨1, _⟩ => show win1_3.index t (1 : Fin 2) * 2048 + 1 * (y 1).val = (i 1).val; omega

/-- Window 4 (the third bias row): its one block is the whole row array. -/
theorem matmul_in4 (c : Dev nD) (t : Fin cfg1.N) (y : S1x2048.Idx) (i : S1x2048.Idx)
    (h0 : (i 0).val = win1_4.index t (0 : Fin 2) * 1 + (y 0).val)
    (h1 : (i 1).val = win1_4.index t (1 : Fin 2) * 2048 + (y 1).val) :
    (iblk1 V c 4 t : FVec Ideal S1x2048 .f32) y = (V c main_v3 : S1x2048.Idx → EReal) i := by
  unfold iblk1
  rw [View.read_apply]
  show V c main_v3 _ = V c main_v3 i
  congr 1
  funext a
  apply Fin.ext
  match a with
  | ⟨0, _⟩ => show win1_4.index t (0 : Fin 2) * 1 + 1 * (y 0).val = (i 0).val; omega
  | ⟨1, _⟩ => show win1_4.index t (1 : Fin 2) * 2048 + 1 * (y 1).val = (i 1).val; omega

/-- One block of rows of the result, over any loaded blocks and any placement `emb` of the block in the result array
    that keeps the column (`hn`): if the loaded rows are the input's rows at the placement's row (`hx`) and the other
    four loaded blocks are their whole arrays, the stored block is the linear layer read through the placement. -/
theorem matmul_block (xa : S8192x2048.Idx → EReal) (wa : S2048x2048.Idx → EReal) (a0 a1 a2 : S1x2048.Idx → EReal)
    (x : FVec Ideal S512x2048 .f32) (w : FVec Ideal S2048x2048 .bf16) (b0 b1 b2 : FVec Ideal S1x2048 .f32)
    (emb : S512x2048.Idx → S8192x2048.Idx)
    (hn : ∀ (r : Fin 512) (n : Fin 2048), ((emb (ix2 r n)) 1).val = n.val)
    (hx : ∀ (r : Fin 512) (n k : Fin 2048), x (ix2 r k) = xa (ix2 ((emb (ix2 r n)) 0 : Fin 8192) k))
    (hw : w = wa) (h0 : b0 = a0) (h1 : b1 = a1) (h2 : b2 = a2) :
    k1_pay1 (F := Ideal) x w b0 b1 b2 = fun y => matmulBias xa wa a0 a1 a2 (emb y) := by
  subst hw h0 h1 h2
  funext y
  obtain ⟨r, n, rfl⟩ : ∃ (r : Fin 512) (n : Fin 2048), y = ix2 r n := ⟨y 0, y 1, eq_ix2 y⟩
  rw [matmul_pay_apply]
  have en : ((emb (ix2 r n)) 1 : Fin 2048) = n := Fin.ext (hn r n)
  show _ = (∑ k : Fin 2048, xa (ix2 ((emb (ix2 r n)) 0 : Fin 8192) k) * w (ix2 k ((emb (ix2 r n)) 1 : Fin 2048)))
      + (b0 (ix2 (0 : Fin 1) ((emb (ix2 r n)) 1 : Fin 2048))
          + Ideal.exp (b1 (ix2 (0 : Fin 1) ((emb (ix2 r n)) 1 : Fin 2048))) * b2 (ix2 (0 : Fin 1) ((emb (ix2 r n)) 1 : Fin 2048)))
  rw [en]
  exact congrArg₂ (· + ·) (Finset.sum_congr rfl fun k _ => by rw [hx r n k]) rfl

/-- WHAT POINT `t` WRITES BACK: block `t` of the linear layer of the five arrays as the region finds them. The input
    rows' block moves with the output rows' block; the weight and the three bias rows are whole at every point. -/
theorem matmul_flushed (c : Dev nD) (t : Fin cfg1.N) :
    (dat1 (F := Ideal) V c).flushed 5 t
      = ((cfg1.win 5).blk t).view.read (Elt Ideal)
          (matmulBias (V c main_arg0) (V c main_v0) (V c main_v1) (V c main_v2) (V c main_v3)) := by
  show (cfg1.win 5).cut (grid1.coords t) ((dat1 V c).after 5 t) = _
  rw [after1_5]
  unfold out1_5
  rw [View.canon_unit_zero mm_offsets_zero]
  simp only [View.ld_unit_zero (S := S512x2048) mm_offsets_zero, View.ld_unit_zero (S := S2048x2048) mm_offsets_zero,
    View.ld_unit_zero (S := S1x2048) mm_offsets_zero]
  obtain ⟨e00, e01, e10, e11, e20, e21, e30, e31, e40, e41, b0, e51⟩ := matmul_idx t
  refine (matmul_block (V c main_arg0) (V c main_v0) (V c main_v1) (V c main_v2) (V c main_v3)
    (iblk1 V c 0 t) (iblk1 V c 1 t) (iblk1 V c 2 t) (iblk1 V c 3 t) (iblk1 V c 4 t)
    (((cfg1.win 5).blk t).view.emb) ?_ ?_ ?_ ?_ ?_ ?_).trans ?_
  · intro r n
    show win1_5.index t (1 : Fin 2) * 2048 + 1 * n.val = n.val; omega
  · intro r n k
    refine matmul_in0 V c t (ix2 r k) _ ?_ ?_
    · show win1_5.index t (0 : Fin 2) * 512 + 1 * r.val = win1_0.index t (0 : Fin 2) * 512 + r.val; omega
    · show k.val = win1_0.index t (1 : Fin 2) * 2048 + k.val; omega
  · funext y
    refine matmul_in1 V c t y y ?_ ?_ <;> omega
  · funext y
    refine matmul_in2 V c t y y ?_ ?_ <;> omega
  · funext y
    refine matmul_in3 V c t y y ?_ ?_ <;> omega
  · funext y
    refine matmul_in4 V c t y y ?_ ?_ <;> omega
  · funext y
    rfl

/-- An index of the result array is in point `t`'s block iff each coordinate is in the block's range on its axis. -/
theorem matmul_mem_blk (t : Fin cfg1.N) (i : S8192x2048.Idx) :
    i ∈ ((cfg1.win 5).blk t).view.set ↔ ∀ a : Fin 2, win1_5.index t a * S512x2048.size a ≤ (i a).val ∧ (i a).val < win1_5.index t a * S512x2048.size a + S512x2048.size a := by
  show i ∈ ((View.whole main_v4).slice (win1_5.rect t)).set ↔ _
  rw [View.set_slice_whole, Rect.mem_set_unit]
  exact Iff.rfl

/-- The 16 blocks of rows tile the result: row `r` lies in the block with block index `r / 512`, which some grid point
    writes back. -/
theorem matmul_cover (i : S8192x2048.Idx) :
    ∃ t : Fin cfg1.N, (cfg1.win 5).flush t = true ∧ i ∈ ((cfg1.win 5).blk t).view.set := by
  have hi0 : (i 0).val < 8192 := (i 0).isLt
  have hi1 : (i 1).val < 2048 := (i 1).isLt
  obtain ⟨t, ht⟩ := matmul_onto ⟨(i 0).val / 512, by omega⟩
  have q0 : win1_5.index t (0 : Fin 2) = (i 0).val / 512 := congrFun ht 0
  have q1 : win1_5.index t (1 : Fin 2) = 0 := congrFun ht 1
  refine ⟨t, flush1_5 t, ?_⟩
  rw [matmul_mem_blk]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 2048 ≤ (i 1).val ∧ (i 1).val < win1_5.index t (1 : Fin 2) * 2048 + 2048; omega

/-- THE RESULT ARRAY after the region: the linear layer of the five arrays as the region finds them. -/
theorem matmul_final (c : Dev nD) :
    (dat1 (F := Ideal) V c).arrAt 5 cfg1.N
      = matmulBias (V c main_arg0) (V c main_v0) (V c main_v1) (V c main_v2) (V c main_v3) :=
  (dat1 (F := Ideal) V c).arrAt_eq_of_cover 5
    (matmulBias (V c main_arg0) (V c main_v0) (V c main_v1) (V c main_v2) (V c main_v3))
    (fun t _ => matmul_flushed V c t) matmul_cover

/-- The spec at an index. -/
theorem matmulBias_apply (x : S8192x2048.Idx → EReal) (w : S2048x2048.Idx → EReal) (b0 b1 b2 : S1x2048.Idx → EReal)
    (b : Fin 8192) (n : Fin 2048) :
    matmulBias x w b0 b1 b2 (ix2 b n)
      = (∑ k : Fin 2048, x (ix2 b k) * w (ix2 k n))
        + (b0 (ix2 (0 : Fin 1) n) + Ideal.exp (b1 (ix2 (0 : Fin 1) n)) * b2 (ix2 (0 : Fin 1) n)) := rfl

/-- The second region's value, entry by entry: at (b, n) the result holds row `b` of the input against column `n` of
    the weight, plus the bias row at `n`. The five arrays are named as functions to the extended reals (`hx`, `hw`,
    `h0`, `h1`, `h2`: by `rfl`). -/
theorem matmul_value (c : Dev nD) (x : S8192x2048.Idx → EReal) (w : S2048x2048.Idx → EReal) (b0 b1 b2 : S1x2048.Idx → EReal)
    (hx : V c main_arg0 = x) (hw : V c main_v0 = w) (h0 : V c main_v1 = b0) (h1 : V c main_v2 = b1) (h2 : V c main_v3 = b2)
    (b : Fin 8192) (n : Fin 2048) :
    (dat1 (F := Ideal) V c).arrAt 5 cfg1.N (ix2 b n)
      = (∑ k : Fin 2048, x (ix2 b k) * w (ix2 k n))
        + (b0 (ix2 (0 : Fin 1) n) + Ideal.exp (b1 (ix2 (0 : Fin 1) n)) * b2 (ix2 (0 : Fin 1) n)) := by
  subst hx hw h0 h1 h2
  rw [matmul_final]

end Cert.KernelIdeal.Hand

end
-- ==== Proof.KernelValue.lean ====
/-
  The kernel program's result array, at the extended reals, is the layer's function of its arguments.

  Its first call leaves the transposed sampled weight wᵀ[k, n] = μ[n, k] + exp (log σ[n, k]) · ε[n, k]; three reshapes lay
  the bias parameters out as rows; its second call multiplies each block of 512 batch rows by the whole of wᵀ and adds
  the sampled bias row. Read entry by entry this is (∑ₖ x[r, k] · wᵀ[k, n]) + b[n].
-/
import proofs.«182129_g2000205307259551_pallasbulk_1315_2_alg».proof.Proof.Spec
import proofs.«182129_g2000205307259551_pallasbulk_1315_2_alg».proof.Proof.KernelRun
import proofs.«182129_g2000205307259551_pallasbulk_1315_2_alg».proof.Proof.KernelHost
import proofs.«182129_g2000205307259551_pallasbulk_1315_2_alg».proof.Proof.KernelReparam
import proofs.«182129_g2000205307259551_pallasbulk_1315_2_alg».proof.Proof.KernelMatmul

noncomputable section

namespace Cert.KernelIdeal.Hand

open Idealize.ShloMosaic Idealize.ShloMosaic.TcCoe Idealize.SL.Sem
open Cert.KernelIdeal Cert.KernelIdeal.Gen
open Idealize.ShloMosaic.ValueIdx

variable (m : (ℓ : Loc nD τ sig) → Buf (Elt Ideal) ℓ) (ρ : Dev nD → PrngReg)

/-- The program's seven arguments on core `c`, as functions of their coordinates with values in the extended reals. -/
def argX (c : Dev nD) (r : Fin 8192) (k : Fin 2048) : EReal := m ((c : Thread nD τ).loc main_arg0) (ix2 r k)
def argMu (c : Dev nD) (n k : Fin 2048) : EReal := m ((c : Thread nD τ).loc main_arg1) (ix2 n k)
def argLs (c : Dev nD) (n k : Fin 2048) : EReal := m ((c : Thread nD τ).loc main_arg2) (ix2 n k)
def argEps (c : Dev nD) (n k : Fin 2048) : EReal := m ((c : Thread nD τ).loc main_arg3) (ix2 n k)
def argMuB (c : Dev nD) (n : Fin 2048) : EReal := m ((c : Thread nD τ).loc main_arg4) (ix1 n)
def argLsB (c : Dev nD) (n : Fin 2048) : EReal := m ((c : Thread nD τ).loc main_arg5) (ix1 n)
def argEpsB (c : Dev nD) (n : Fin 2048) : EReal := m ((c : Thread nD τ).loc main_arg6) (ix1 n)

/-- The layer's result from this program's arguments. -/
def resultOf (c : Dev nD) : (⟨2, ![8192, 2048]⟩ : Shape).Idx → EReal :=
  Cert.RandLinear.result (argX m c) (argMu m c) (argLs m c) (argEps m c) (argMuB m c) (argLsB m c) (argEpsB m c)

/-- Entry (r, n) of the result array after the run. -/
theorem result_entry (c : Dev nD) (r : Fin 8192) (n : Fin 2048) :
    W3 (F := Ideal) m ρ c (Proc.devRef .tc main_v4) (ix2 r n) = resultOf m c (ix2 r n) := by
  rw [W3_result m ρ c]
  refine (matmul_value (V2 m ρ) c _ _ _ _ _ (V2_x m ρ c) ((V2_w m ρ c).trans (reparam_final (V0 m ρ) c)) rfl rfl rfl
    r n).trans ?_
  show _ = (∑ k : Fin 2048, argX m c r k * Cert.RandLinear.weightT (argMu m c) (argLs m c) (argEps m c) k n)
      + Cert.RandLinear.biasOf (argMuB m c) (argLsB m c) (argEpsB m c) n
  refine congrArg₂ (· + ·) (Finset.sum_congr rfl fun k _ => rfl) ?_
  show _ = argMuB m c n + Ideal.exp (argLsB m c n) * argEpsB m c n
  exact congrArg₂ (· + ·) (V2_v1 m ρ c n)
    (congrArg₂ (· * ·) (congrArg Ideal.exp (V2_v2 m ρ c n)) (V2_v3 m ρ c n))

/-- The run: the result array ends at the layer's function of the arguments, and the arguments end as launched. -/
theorem run : θ_run (defs (F := Ideal)) (onTc (τ := τ) (main (F := Ideal))) ⟨m, fun _ => 0, ρ⟩ (fun r => ∀ c : Dev nD,
      r.2.mem ((c.tc : Thread nD τ).loc main_v4) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun r h c =>
    ⟨(h c _ (mem_uc main_v4 (by decide))).trans (funext fun i => by
        obtain ⟨a, b, rfl⟩ : ∃ (a : Fin 8192) (b : Fin 2048), i = ix2 a b := ⟨i 0, i 1, eq_ix2 i⟩
        exact result_entry m ρ c a b),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

end Cert.KernelIdeal.Hand

end
-- ==== Proof.RefHost.lean ====
/-
  What the reference's host operations leave in the arrays its two kernel calls read, at the extended reals, in terms
  of the program's arguments: each weight parameter is transposed (entry (k, n) of the array the first call reads is
  entry (n, k) of the argument), the batch is passed on as it is, and the bias row is μ_b + exp (log σ_b) · ε_b laid
  out as one row. Every `pad` here adds nothing on any side (all widths zero), so it returns its operand.
-/
import proofs.«182129_g2000205307259551_pallasbulk_1315_2_alg».proof.Proof.Gen.ReferenceIdeal.Regions
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

noncomputable section

namespace Cert.ReferenceIdeal.Hand

open Idealize.ShloMosaic Idealize.ShloMosaic.TcCoe Idealize.SL.Sem
open Cert.ReferenceIdeal Cert.ReferenceIdeal.Gen
open Idealize.ShloMosaic.ValueIdx

variable (m : (ℓ : Loc nD τ sig) → Buf (Elt Ideal) ℓ)

/-- The program's seven arguments on core `c`, as functions of their coordinates with values in the extended reals:
    the batch x[r, k], the weight parameters μ[n, k], log σ[n, k], ε[n, k], the bias parameters μ_b[n], log σ_b[n], ε_b[n]. -/
def argX (c : Dev nD) (r : Fin 8192) (k : Fin 2048) : EReal := m ((c : Thread nD τ).loc main_arg0) (ix2 r k)
def argMu (c : Dev nD) (n k : Fin 2048) : EReal := m ((c : Thread nD τ).loc main_arg1) (ix2 n k)
def argLs (c : Dev nD) (n k : Fin 2048) : EReal := m ((c : Thread nD τ).loc main_arg2) (ix2 n k)
def argEps (c : Dev nD) (n k : Fin 2048) : EReal := m ((c : Thread nD τ).loc main_arg3) (ix2 n k)
def argMuB (c : Dev nD) (n : Fin 2048) : EReal := m ((c : Thread nD τ).loc main_arg4) (ix1 n)
def argLsB (c : Dev nD) (n : Fin 2048) : EReal := m ((c : Thread nD τ).loc main_arg5) (ix1 n)
def argEpsB (c : Dev nD) (n : Fin 2048) : EReal := m ((c : Thread nD τ).loc main_arg6) (ix1 n)

/-- A pad of a matrix with no padding on either axis, read at an entry, is the matrix there. -/
theorem pad_none2 {a b : ℕ} (x : (⟨2, ![a, b]⟩ : Shape).Idx → EReal) {u : Shape} (v : u.Idx → EReal)
    (h : (⟨2, ![a, b]⟩ : Shape).Pads ![0, 0] ![0, 0] ![0, 0] ⟨2, ![a, b]⟩) (hu : 0 < u.numel) (i : Fin a) (j : Fin b) :
    pad ⟨2, ![a, b]⟩ ![0, 0] ![0, 0] ![0, 0] x v h hu (ix2 i j) = x (ix2 i j) :=
  pad_apply_of_inside _ _ _ x v h hu _ _ fun d => match d with
    | ⟨0, _⟩ => by show i.val = 0 + i.val * (0 + 1); omega
    | ⟨1, _⟩ => by show j.val = 0 + j.val * (0 + 1); omega

/-- The same for a vector. -/
theorem pad_none1 {a : ℕ} (x : (⟨1, ![a]⟩ : Shape).Idx → EReal) {u : Shape} (v : u.Idx → EReal)
    (h : (⟨1, ![a]⟩ : Shape).Pads ![0] ![0] ![0] ⟨1, ![a]⟩) (hu : 0 < u.numel) (i : Fin a) :
    pad ⟨1, ![a]⟩ ![0] ![0] ![0] x v h hu (ix1 i) = x (ix1 i) :=
  pad_apply_of_inside _ _ _ x v h hu _ _ fun d => match d with
    | ⟨0, _⟩ => by show i.val = 0 + i.val * (0 + 1); omega

/-- A vector laid out as a one-row matrix reads, at column n of its row, the vector's entry n. -/
theorem row_entry {α : Type} {k : ℕ} (x : (⟨1, ![k]⟩ : Shape).Idx → α) (h : (⟨1, ![k]⟩ : Shape).ShapeCasts ⟨2, ![1, k]⟩)
    (n : Fin k) : shapeCast ⟨2, ![1, k]⟩ x h (ix2 (0 : Fin 1) n) = x (ix1 n) :=
  shapeCast_apply x h _ _ (by
    rw [Shape.rowMajor_val_one, Shape.rowMajor_val_two]
    show n.val = 0 * k + n.val
    omega)

/-- The first weight parameter as the first kernel call reads it: transposed. -/
theorem entry_mu (c : Dev nD) (k n : Fin 2048) :
    V10 m c main_v7 (ix2 k n) = argMu m c n k := by
  rw [V10_of m c main_v7 (by decide), V9_of m c main_v7 (by decide), V8_of m c main_v7 (by decide),
    V7_of m c main_v7 (by decide)]
  have e : V6 m c main_v7 = pad S2048x2048 ![0, 0] ![0, 0] ![0, 0]
      (transpose S2048x2048 [1, 0] (V0 m c main_arg1) transposes_S2048x2048_S2048x2048_1_0)
      (sitofp (F := Ideal) .f32 (constantI S_ 32 0#32)) pads_S2048x2048_S2048x2048_000_000 h_S_ := by
    show StableHlo.after hostOps0_5 (V5 m c) (Proc.devRef .tc main_v7) = _
    after_results
    rfl
  rw [e]
  exact (pad_none2 _ _ _ _ k n).trans (transpose_ix2_apply _ _ k n)

/-- The second weight parameter (log σ), transposed. -/
theorem entry_ls (c : Dev nD) (k n : Fin 2048) :
    V10 m c main_v9 (ix2 k n) = argLs m c n k := by
  rw [V10_of m c main_v9 (by decide), V9_of m c main_v9 (by decide)]
  have e : V8 m c main_v9 = pad S2048x2048 ![0, 0] ![0, 0] ![0, 0]
      (transpose S2048x2048 [1, 0] (V0 m c main_arg2) transposes_S2048x2048_S2048x2048_1_0)
      (sitofp (F := Ideal) .f32 (constantI S_ 32 0#32)) pads_S2048x2048_S2048x2048_000_000 h_S_ := by
    show StableHlo.after hostOps0_7 (V7 m c) (Proc.devRef .tc main_v9) = _
    after_results
    rfl
  rw [e]
  exact (pad_none2 _ _ _ _ k n).trans (transpose_ix2_apply _ _ k n)

/-- The third weight parameter (ε), transposed. -/
theorem entry_eps (c : Dev nD) (k n : Fin 2048) :
    V10 m c main_v11 (ix2 k n) = argEps m c n k := by
  have e : V10 m c main_v11 = pad S2048x2048 ![0, 0] ![0, 0] ![0, 0]
      (transpose S2048x2048 [1, 0] (V0 m c main_arg3) transposes_S2048x2048_S2048x2048_1_0)
      (sitofp (F := Ideal) .f32 (constantI S_ 32 0#32)) pads_S2048x2048_S2048x2048_000_000 h_S_ := by
    show StableHlo.after hostOps0_9 (V9 m c) (Proc.devRef .tc main_v11) = _
    after_results
    rfl
  rw [e]
  exact (pad_none2 _ _ _ _ k n).trans (transpose_ix2_apply _ _ k n)

/-- The batch reaches the second kernel call unchanged. -/
theorem entry_x (c : Dev nD) (r : Fin 8192) (k : Fin 2048) :
    V10 m c main_v5 (ix2 r k) = argX m c r k := by
  rw [V10_of m c main_v5 (by decide), V9_of m c main_v5 (by decide), V8_of m c main_v5 (by decide),
    V7_of m c main_v5 (by decide), V6_of m c main_v5 (by decide), V5_of m c main_v5 (by decide)]
  have e : V4 m c main_v5 = pad S8192x2048 ![0, 0] ![0, 0] ![0, 0] (V0 m c main_arg0)
      (sitofp (F := Ideal) .f32 (constantI S_ 32 0#32)) pads_S8192x2048_S8192x2048_000_000 h_S_ := by
    show StableHlo.after hostOps0_3 (V3 m c) (Proc.devRef .tc main_v5) = _
    after_results
    rfl
  rw [e]
  exact pad_none2 _ _ _ _ r k

/-- The bias row the second kernel call reads: μ_b + exp (log σ_b) · ε_b, as one row. -/
theorem entry_bias (c : Dev nD) (n : Fin 2048) :
    V10 m c main_v4 (ix2 (0 : Fin 1) n) = argMuB m c n + Ideal.exp (argLsB m c n) * argEpsB m c n := by
  rw [V10_of m c main_v4 (by decide), V9_of m c main_v4 (by decide), V8_of m c main_v4 (by decide),
    V7_of m c main_v4 (by decide), V6_of m c main_v4 (by decide), V5_of m c main_v4 (by decide),
    V4_of m c main_v4 (by decide)]
  have e : V3 m c main_v4 = shapeCast S1x2048 (pad S2048 ![0] ![0] ![0]
      (addf (V0 m c main_arg4) (mulf (Host.exp (V0 m c main_arg5)) (V0 m c main_arg6)))
      (sitofp (F := Ideal) .f32 (constantI S_ 32 0#32)) pads_S2048_S2048_000 h_S_) shapeCasts_S2048_S1x2048 := by
    show StableHlo.after hostOps0_2 (V2 m c) (Proc.devRef .tc main_v4) = _
    after_results
    rfl
  rw [e]
  refine (row_entry _ _ n).trans ((pad_none1 _ _ _ _ n).trans ?_)
  simp only [addf_apply, mulf_apply, Host.exp, Ideal.hostUnary_exp_def, argMuB, argLsB, argEpsB]

end Cert.ReferenceIdeal.Hand

end
-- ==== Proof.RefRun.lean ====
import proofs.«182129_g2000205307259551_pallasbulk_1315_2_alg».proof.Proof.RefRunCond
import Idealize.ShloMosaic.Lib.Pipeline.FrameBody
import Idealize.ShloMosaic.Lib.Pipeline.RegionsLoop
import Idealize.ShloMosaic.Lib.Pipeline.FrameSuffix

/-!
# The reference program's run, with its result array named

@main of the reference is ten host stretches, then the reparametrisation kernel (region 0, which writes
`main_v12`), then the matmul-with-bias kernel (region 1, which reads `main_v12` and writes `main_v13`). Given, for
each region and core, proof data entered at the contents the run has reached there, with its body obligation, the run
terminates; the result array `main_v13` ends at what region 1's write-backs leave in it, and every argument array
ends as launched.
-/

noncomputable section

open Idealize.ShloMosaic Idealize.ShloMosaic.TcCoe Idealize.SL.Sem

namespace Cert.ReferenceIdeal.Hand

open Cert.ReferenceIdeal Cert.ReferenceIdeal.Gen
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat BodyObligation RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two regions' proof data, as given -/

-- region 0: entered at the contents after the tenth host stretch; its invariant is the class invariant throughout
variable (d0 : (c : Dev nD) → Dat τ (Elt F) Unit ℕ (UR sig nD τ) ℕ cfg0 c)

/-- Region 1's entry contents on core `c`: those after the tenth host stretch, with `main_v12` at what region 0's
    write-backs leave in it. -/
abbrev Ve1 (c : Dev nD) : Valuation τ sig (Elt F) := Function.update (V10 m c) main_v12 ((d0 c).arrAt 3 cfg0.N)

variable (d1 : (c : Dev nD) → Dat τ (Elt F) Unit ℕ (UR sig nD τ) ℕ cfg1 c)

/-! ## What the regions leave, as the unknowns of the conditional run -/

/-- The contents the regions leave in the buffers they may change: after region 0, `main_v12` at what its write-backs
    leave; after region 1, `main_v13` likewise. (Off these two points the value is never read.) -/
def outs : Outs (F := F) := fun J r c =>
  match J with
  | 11 => if h : r = main_v12 then h ▸ (d0 c).arrAt 3 cfg0.N else V10 m c r
  | 12 => if h : r = main_v13 then h ▸ (d1 c).arrAt 3 cfg1.N else V10 m c r
  | _ => V10 m c r

theorem outs_11 (c : Dev nD) : outs m d0 d1 11 main_v12 c = (d0 c).arrAt 3 cfg0.N := by
  simp only [outs, dif_pos]
theorem outs_12 (c : Dev nD) : outs m d0 d1 12 main_v13 c = (d1 c).arrAt 3 cfg1.N := by
  simp only [outs, dif_pos]
/-- After region 0 the run is at region 1's entry contents. -/
theorem V11_eq (c : Dev nD) : V11 m (outs m d0 d1) c = Ve1 m d0 c := by
  simp only [V11, Ve1, outs_11]

/-! ## The proof data family and what rides beside the buffers -/

/-- Both pipelines' proof data: a literal match, so that the family at a numeral reduces to the given data. -/
def pdats : (p : Fin 2) → (c : Dev nD) → Dat τ (Elt F) Unit ℕ (UR sig nD τ) ℕ (cfgs p) c
  | ⟨0, _⟩ => d0
  | ⟨1, _⟩ => d1

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state, and nothing owed. -/
abbrev R (c : Dev nD) : sProp 𝕄 := iprop((∃ r, prngReg c r) ∗ ∃ W, owes (c : Thread nD τ) (0 : CellTallies nD τ sig Unit) W)

/-! ## Region 0 over the thread state -/

variable (hA0 : ∀ c w, (d0 c).A w = V10 m c (Pipeline.arrRef spec0 w))
  (hb0 : ∀ c, BodyObligation (d0 c) (defs₀ (F := F)) Variants.none () Set.univ)
  (hΦ0 : ∀ c t, (d0 c).Φ t = Pipeline.ΦA spec0 c)
  (hq0 : ∀ c w, (d0 c).q w = fullShare)
  (ho0 : ∀ c t, (d0 c).owed t = 0)
  (hr0 : ∀ c, (d0 c).recorded 0 = Set.univ)

include hA0 in
/-- At region 0's exit each of its arrays holds what the pipeline leaves: an input as entered (never written back),
    the output `main_v12` at its folded write-backs. -/
theorem hF0 (c : Dev nD) : ∀ w : Fin cfg0.W, (d0 c).arrAt w cfg0.N = V11 m (outs m d0 d1) c (Pipeline.arrRef spec0 w)
  | 0 => ((d0 c).arrAt_in 0 rfl cfg0.N).trans ((hA0 c 0).trans (V11_of m (outs m d0 d1) c main_v7 (by decide)).symm)
  | 1 => ((d0 c).arrAt_in 1 rfl cfg0.N).trans ((hA0 c 1).trans (V11_of m (outs m d0 d1) c main_v9 (by decide)).symm)
  | 2 => ((d0 c).arrAt_in 2 rfl cfg0.N).trans ((hA0 c 2).trans (V11_of m (outs m d0 d1) c main_v11 (by decide)).symm)
  | 3 => by
    show _ = Function.update (V10 m c) (Proc.devRef .tc main_v12) (outs m d0 d1 11 main_v12 c) (Proc.devRef .tc main_v12)
    rw [Function.update_self, outs_11]
  | ⟨_ + 4, h⟩ => absurd h (Nat.not_lt.2 (Nat.le_add_left _ _))

/-- Off region 0's arrays nothing changes: only `main_v12` may, and it is one of them. -/
theorem hrest0 (c : Dev nD) : ∀ b : Ref sig .tc, b ∉ Finset.univ.image (Pipeline.arrRef spec0) →
    V11 m (outs m d0 d1) c b = V10 m c b :=
  fun b hb => V11_of m (outs m d0 d1) c b fun h =>
    hb (Finset.mem_image.mpr ⟨3, Finset.mem_univ _, (List.mem_singleton.mp h).symm⟩)

-- a library lemma stated over the pinned configuration unifies with the printed one only when unification may
-- unfold plain definitions in a metavariable's type
set_option backward.isDefEq.respectTransparency.types false in
/-- REGION 0 over the thread state: entered from every unscoped buffer at the contents after the tenth host stretch,
    left with `main_v12` at what its write-backs leave. Its arrays are split out of the unscoped buffers at entry and
    put back at exit; the generator register goes into the class invariant and comes back; nothing is owed. -/
def reg0 : RegionSeg (pcfgs (F := F)) adm (pdats d0 d1) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun c t => ho0 c t
  pre c := iprop(StableHlo.held (c : Thread nD τ) (Pipeline.ucRefs τ sig) (V10 m c) ∗ R c)
  post c := iprop(StableHlo.held (c : Thread nD τ) (Pipeline.ucRefs τ sig) (V11 m (outs m d0 d1) c) ∗ R c)
  X c := iprop(∃ r, prngReg c r)
  Y c := iprop(∃ r, prngReg c r)
  Z c := Pipeline.unscopedRest (Ix := Unit) (Name := ℕ) (U := UR sig nD τ) (Lvl := ℕ) spec0 c (fun b => V10 m c b)
  hentry c := by
    rw [Pipeline.ownSems0_none]
    have hsplit := Pipeline.arrays_of_unscopedBufs (p := 0) (pcfgs (F := F)) adm (pdats d0 d1) launch0.win launch0.arr_whole c
      ((pdats d0 d1 0 c).share_full (hq0 c)) (fun b => V10 m c b) (hA0 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats d0 d1 0 c).owed 0 = 0 from ho0 c 0]
      icases HO with ⟨%W, HO⟩; iexists W; isplitr
      · ipureintro; exact fun _ _ => Or.inl (by rw [show (pdats d0 d1 0 c).recorded 0 = Set.univ from hr0 c]; exact Set.mem_univ _)
      iexact HO
    isplitl [Hp]; · iexact Hp
    iexact Hrest
  hin c := by
    rw [show (pdats d0 d1 0 c).Φ 0 = Pipeline.ΦA spec0 c from hΦ0 c 0]; unfold Pipeline.ΦA
    iintro ⟨Hp, -, Hr⟩
    isplitl [Hr]; · iexact Hr
    iexact Hp
  hout c := by
    rw [Pipeline.ownSems0_none, show (pdats d0 d1 0 c).Φ (Fin.last _) = Pipeline.ΦA spec0 c from hΦ0 c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats d0 d1) ((pdats d0 d1 0 c).share_full (hq0 c))
      (fun b => V10 m c b) (fun b => V11 m (outs m d0 d1) c b) ((pdats d0 d1 0 c).arrAt · cfg0.N) (hF0 m d0 d1 hA0 c) (hrest0 m d0 d1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats d0 d1 0 c).owed (Fin.last _) = 0 from ho0 c _]
    icases HO with ⟨%W, -, HO⟩; iexists W; iexact HO

/-! ## Region 1 over the thread state -/

variable (hA1 : ∀ c w, (d1 c).A w = Ve1 m d0 c (Pipeline.arrRef spec1 w))
  (hb1 : ∀ c, BodyObligation (d1 c) (defs₀ (F := F)) Variants.none () Set.univ)
  (hin1 : ∀ c, Pipeline.ΦA spec1 c ⊢ (d1 c).Φ 0)
  (hout1 : ∀ c, (d1 c).Φ (Fin.last cfg1.N) ⊢ Pipeline.ΦA spec1 c)
  (hq1 : ∀ c w, (d1 c).q w = fullShare)
  (ho1 : ∀ c t, (d1 c).owed t = 0)
  (hr1 : ∀ c, (d1 c).recorded 0 = Set.univ)

include hA1 in
/-- Region 1's entry contents read off the run's valuation after region 0. -/
theorem hA1' (c : Dev nD) (w : Fin cfg1.W) : (d1 c).A w = V11 m (outs m d0 d1) c (Pipeline.arrRef spec1 w) :=
  (hA1 c w).trans (congrFun (V11_eq m d0 d1 c) _).symm

include hA1 in
/-- At region 1's exit each of its arrays holds what the pipeline leaves: an input as entered (never written back),
    the output `main_v13` at its folded write-backs. -/
theorem hF1 (c : Dev nD) : ∀ w : Fin cfg1.W, (d1 c).arrAt w cfg1.N = V12 m (outs m d0 d1) c (Pipeline.arrRef spec1 w)
  | 0 => ((d1 c).arrAt_in 0 rfl cfg1.N).trans ((hA1' m d0 d1 hA1 c 0).trans (V12_of m (outs m d0 d1) c main_v5 (by decide)).symm)
  | 1 => ((d1 c).arrAt_in 1 rfl cfg1.N).trans ((hA1' m d0 d1 hA1 c 1).trans (V12_of m (outs m d0 d1) c main_v12 (by decide)).symm)
  | 2 => ((d1 c).arrAt_in 2 rfl cfg1.N).trans ((hA1' m d0 d1 hA1 c 2).trans (V12_of m (outs m d0 d1) c main_v4 (by decide)).symm)
  | 3 => by
    show _ = Function.update (V11 m (outs m d0 d1) c) (Proc.devRef .tc main_v13) (outs m d0 d1 12 main_v13 c) (Proc.devRef .tc main_v13)
    rw [Function.update_self, outs_12]
  | ⟨_ + 4, h⟩ => absurd h (Nat.not_lt.2 (Nat.le_add_left _ _))

/-- Off region 1's arrays nothing changes: only `main_v13` may, and it is one of them. -/
theorem hrest1 (c : Dev nD) : ∀ b : Ref sig .tc, b ∉ Finset.univ.image (Pipeline.arrRef spec1) →
    V12 m (outs m d0 d1) c b = V11 m (outs m d0 d1) c b :=
  fun b hb => V12_of m (outs m d0 d1) c b fun h =>
    hb (Finset.mem_image.mpr ⟨3, Finset.mem_univ _, (List.mem_singleton.mp h).symm⟩)

-- a library lemma stated over the pinned configuration unifies with the printed one only when unification may
-- unfold plain definitions in a metavariable's type
set_option backward.isDefEq.respectTransparency.types false in
/-- REGION 1 over the thread state: entered from every unscoped buffer at the contents region 0 leaves, left with
    `main_v13` at what its write-backs leave. Its invariant holds the accumulator scratch at contents that vary with
    the point, so it is entered from the class invariant and left to it through the two given entailments. -/
def reg1 : RegionSeg (pcfgs (F := F)) adm (pdats d0 d1) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun c t => ho1 c t
  pre c := iprop(StableHlo.held (c : Thread nD τ) (Pipeline.ucRefs τ sig) (V11 m (outs m d0 d1) c) ∗ R c)
  post c := iprop(StableHlo.held (c : Thread nD τ) (Pipeline.ucRefs τ sig) (V12 m (outs m d0 d1) c) ∗ R c)
  X c := iprop(∃ r, prngReg c r)
  Y c := iprop(∃ r, prngReg c r)
  Z c := Pipeline.unscopedRest (Ix := Unit) (Name := ℕ) (U := UR sig nD τ) (Lvl := ℕ) spec1 c (fun b => V11 m (outs m d0 d1) c b)
  hentry c := by
    rw [Pipeline.ownSems0_none]
    have hsplit := Pipeline.arrays_of_unscopedBufs (p := 1) (pcfgs (F := F)) adm (pdats d0 d1) launch1.win launch1.arr_whole c
      ((pdats d0 d1 1 c).share_full (hq1 c)) (fun b => V11 m (outs m d0 d1) c b) (hA1' m d0 d1 hA1 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats d0 d1 1 c).owed 0 = 0 from ho1 c 0]
      icases HO with ⟨%W, HO⟩; iexists W; isplitr
      · ipureintro; exact fun _ _ => Or.inl (by rw [show (pdats d0 d1 1 c).recorded 0 = Set.univ from hr1 c]; exact Set.mem_univ _)
      iexact HO
    isplitl [Hp]; · iexact Hp
    iexact Hrest
  hin c := by
    refine BIBase.Entails.trans ?_ (show Pipeline.ΦA spec1 c ⊢ (pdats d0 d1 1 c).Φ 0 from hin1 c)
    unfold Pipeline.ΦA
    iintro ⟨Hp, -, Hr⟩
    isplitl [Hr]; · iexact Hr
    iexact Hp
  hout c := by
    rw [Pipeline.ownSems0_none]
    refine BIBase.Entails.trans (show (pdats d0 d1 1 c).Φ (Fin.last _) ⊢ Pipeline.ΦA spec1 c from hout1 c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats d0 d1) ((pdats d0 d1 1 c).share_full (hq1 c))
      (fun b => V11 m (outs m d0 d1) c b) (fun b => V12 m (outs m d0 d1) c b) ((pdats d0 d1 1 c).arrAt · cfg1.N) (hF1 m d0 d1 hA1 c) (hrest1 m d0 d1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats d0 d1 1 c).owed (Fin.last _) = 0 from ho1 c _]
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hA0 hb0 hΦ0 hq0 ho0 hr0 hA1 hb1 hin1 hout1 hq1 ho1 hr1 in
/-- THE REFERENCE'S RUN. From any memory with zero counters, every weakly fair execution of the reference's @main
    terminates; in every final memory the result array `main_v13` holds what region 1's write-backs leave in it, and
    each argument array what it held at launch. By the conditional run at the two region records above: the last
    valuation read at `main_v13` and at each argument. -/
theorem run_values : θ_run defs (onTc (τ := τ) (main (F := F))) ⟨m, fun _ => 0, ρ⟩ (fun r => ∀ c : Dev nD,
      r.2.mem ((c.tc : Thread nD τ).loc main_v13) = (d1 c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run _ _ _).mono (fun r h c => ?_)
    (run_cond m (Ix := Unit) (U := UR sig nD τ) (Lvl := ℕ) emb₁ () 𝒱₀ L lv (fun _ _ => rfl) ρ (outs m d0 d1) (pdats d0 d1)
      (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => R c)
      (hE0 := by
        refine Pipeline.initEach L lv fun c => ?_
        iintro ⟨⟨-, HO, -, Hp, -⟩, -⟩
        imodintro
        isplitl [Hp]; · iexists _; iexact Hp
        iexists ∅; iexact HO)
      (hE2 := fun c => by
        iintro ⟨-, HO⟩; iexact HO)
      (R0 := reg0 m d0 d1 hA0 hb0 hΦ0 hq0 ho0 hr0) (hpre0 := fun _ => .rfl) (hpost0 := fun _ => .rfl)
      (R1 := reg1 m d0 d1 hA1 hb1 hin1 hout1 hq1 ho1 hr1) (hpre1 := fun _ => .rfl) (hpost1 := fun _ => .rfl))
  refine ⟨?_, (h c _ (mem_uc main_arg0 (by decide))).trans (V12_main_arg0 m (outs m d0 d1) c),
    (h c _ (mem_uc main_arg1 (by decide))).trans (V12_main_arg1 m (outs m d0 d1) c),
    (h c _ (mem_uc main_arg2 (by decide))).trans (V12_main_arg2 m (outs m d0 d1) c),
    (h c _ (mem_uc main_arg3 (by decide))).trans (V12_main_arg3 m (outs m d0 d1) c),
    (h c _ (mem_uc main_arg4 (by decide))).trans (V12_main_arg4 m (outs m d0 d1) c),
    (h c _ (mem_uc main_arg5 (by decide))).trans (V12_main_arg5 m (outs m d0 d1) c),
    (h c _ (mem_uc main_arg6 (by decide))).trans (V12_main_arg6 m (outs m d0 d1) c)⟩
  refine (h c _ (mem_uc main_v13 (by decide))).trans ?_
  show Function.update (V11 m (outs m d0 d1) c) (Proc.devRef .tc main_v13) (outs m d0 d1 12 main_v13 c) (Proc.devRef .tc main_v13) = _
  rw [Function.update_self, outs_12]

end Cert.ReferenceIdeal.Hand

end
-- ==== Proof.RefReparam.lean ====
/- The reference program's first kernel region (pipeline 0, the kernel `cc0__reparam_kernel`): its proof data at
   arbitrary region-entry contents `V`, generic in the float carrier, and its body obligation.
   The kernel runs on a 4 x 8 grid; each of its four windows is a 512 x 256 block of a 2048 x 2048 f32 array at
   block index (i, j); the body reads the three input blocks whole and stores x0 + exp x1 * x2 over the whole
   output block. One control case. -/
import proofs.«182129_g2000205307259551_pallasbulk_1315_2_alg».proof.Proof.Gen.ReferenceIdeal.Launch
import proofs.«182129_g2000205307259551_pallasbulk_1315_2_alg».proof.Proof.Gen.ReferenceIdeal.Skeleton
import proofs.«182129_g2000205307259551_pallasbulk_1315_2_alg».proof.Proof.Gen.ReferenceIdeal.Points
import Idealize.ShloMosaic.Lib.Pipeline.FrameBody
import Idealize.ShloMosaic.Lib.Ring
import Idealize.ShloMosaic.Lib.Tactic

-- membership of an index in a 512 x 256 rectangle is decided by structural recursion along each axis
set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the 512 x 256 rectangle of its array at block index (i, j), read off the
    entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window is fetched at every point and never cut, so whatever proof data has `V`'s array for it and a
    body that leaves its block in place finds that block in the current staging buffer at every point. Window 0. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's one access rectangle: the whole 512 x 256 block -/

abbrev r0_0 : Rect S512x256 := Rect.unit (s := S512x256) ![0, 0] S512x256.size inb_S512x256_S512x256_0_0

/-! ## What the body leaves in the output window's buffer -/

/-- The output block after the body, from the three input blocks: its single whole-block store of
    x0 + exp x1 * x2. -/
def out0_3 (x0 : Vec F S512x256 .f32) (x1 : Vec F S512x256 .f32) (x2 : Vec F S512x256 .f32) : Vec F S512x256 .f32 :=
  View.canon [⟨r0_0, k0_pay1 (View.ld x0 r0_0) (View.ld x1 r0_0) (View.ld x2 r0_0)⟩]

/-- The one store is over the whole block, so it covers every index of it. -/
theorem cover0_3 (p0 : Vec F S512x256 .f32) (y : S512x256.Idx) :
    ∃ pc ∈ ([⟨r0_0, p0⟩] : List (View.Piece (Elt F) S512x256 .f32)), y ∈ pc.1.set :=
  View.cover_of_tiled [⟨r0_0, p0⟩] S512x256.size (by rfl) y

/-! ## The body's triple -/

set_option maxHeartbeats 1000000 in
/-- The kernel body on whole staging memrefs, the inputs' at contents `x0 x1 x2` and the output's at anything, runs to
    a state holding the inputs' unchanged and the output's at `out0_3 x0 x1 x2`. -/
theorem sound_kernel0 (c : Dev nD) (E : Set ℕ) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole)
    (x0 : Vec F S512x256 .f32) (x1 : Vec F S512x256 .f32) (x2 : Vec F S512x256 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__reparam_kernel i arg2 harg2 arg3 harg3 arg4 harg4 arg5 harg5) K := by
  simp only [cc0__reparam_kernel_eq_skeleton]; unfold cc0__reparam_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the output's at `out0_3` of the three input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' staging memrefs hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Hand

end
-- ==== Proof.RefReparamValue.lean ====
/- The value of the reference program's first kernel region at the ideal carrier: after the region, the output
   array holds, at every index (k, n), the entry x0 + exp x1 * x2 of the three input arrays as the region found them.
   The 4 x 8 grid's 512 x 256 blocks tile the 2048 x 2048 array; each point writes back the pointwise result of the
   three input blocks at the same block index, and a block's entry at local (r, s) is the array's at
   (512 i + r, 256 j + s). Arithmetic is in the extended reals. -/
import proofs.«182129_g2000205307259551_pallasbulk_1315_2_alg».proof.Proof.RefReparam
import Idealize.ShloMosaic.Lib.Pipeline.Value
import Idealize.ShloMosaic.Lib.ValueIdx
import Idealize.ShloMosaic.PureOps.Ideal

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)
open Idealize.ShloMosaic.ValueIdx (ix2)

/-! ## The pointwise law -/

/-- The two zero offsets of the body's whole-block rectangle, as the constant zero function. -/
theorem zero_off : (![0, 0] : Fin 2 → Nat) = fun _ => 0 := funext fun a => by fin_cases a <;> rfl

/-- The body's arithmetic at any carrier: the three same-shape casts are identities, leaving x0 + exp x1 * x2. -/
theorem pay_eq {F : FTy → Type} [FloatOps F] (x0 x1 x2 : Vec F S512x256 .f32) :
    k0_pay1 x0 x1 x2 = addf x0 (mulf (exp x1) x2) := by
  unfold k0_pay1
  simp only [shapeCast_self]

/-- The reparametrisation of three 2048 x 2048 arrays of extended reals, index by index: a0 + exp a1 * a2. -/
def reparam (a0 a1 a2 : FVec Ideal S2048x2048 .f32) : FVec Ideal S2048x2048 .f32 :=
  fun i => a0 i + Ideal.exp (a1 i) * a2 i

/-- The reparametrisation read at an index. -/
theorem reparam_apply (a0 a1 a2 : FVec Ideal S2048x2048 .f32) (i : S2048x2048.Idx) :
    reparam a0 a1 a2 i = a0 i + Ideal.exp (a1 i) * a2 i := rfl

-- the TensorCore's buffer contents when the region is entered, at the ideal carrier
variable (V : (c : Dev nD) → (b : Ref sig .tc) → Buf (Elt Ideal) ((c : Thread nD τ).loc b))

/-- The three input arrays as the region finds them, at their literal type: 2048 x 2048 extended reals. -/
abbrev arr7 (c : Dev nD) : FVec Ideal S2048x2048 .f32 := V c main_v7
abbrev arr9 (c : Dev nD) : FVec Ideal S2048x2048 .f32 := V c main_v9
abbrev arr11 (c : Dev nD) : FVec Ideal S2048x2048 .f32 := V c main_v11

/-! ## The index maps, decided over the 32 grid points -/

/-- Every window's block index at a point is the output window's, and that ranges over 4 x 8. -/
theorem blockIndex_facts : ∀ t : Fin cfg0.N,
    win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2)
    ∧ win0_3.index t (0 : Fin 2) ≤ 3 ∧ win0_3.index t (1 : Fin 2) ≤ 7 :=
  (by decide +kernel : ∀ t : Fin grid0.N, _)

/-- Every block index (q0, q1) of the 4 x 8 tiling is some grid point's. -/
theorem blockIndex_onto : ∀ (q0 : Fin 4) (q1 : Fin 8), ∃ t : Fin cfg0.N, win0_3.index t = ![q0.val, q1.val] :=
  (by decide +kernel : ∀ (q0 : Fin 4) (q1 : Fin 8), ∃ t : Fin grid0.N, win0_3.index t = ![q0.val, q1.val])

/-! ## What a point writes back -/

/-- Point `t` writes back block `t` of the reparametrisation of the three input arrays as the region found them. -/
theorem flushed3_eq (c : Dev nD) (t : Fin cfg0.N) :
    (dat0 (F := Ideal) V c).flushed 3 t
      = ((cfg0.win 3).blk t).view.read (Elt Ideal) (reparam (V c main_v7) (V c main_v9) (V c main_v11)) := by
  show (cfg0.win 3).cut (grid0.coords t) ((dat0 V c).after 3 t) = _
  rw [after0_3]
  unfold out0_3
  rw [View.canon_unit_zero zero_off]
  simp only [View.ld_unit_zero (S := S512x256) zero_off]
  rw [pay_eq]
  obtain ⟨e00, e01, e10, e11, e20, e21, -, -⟩ := blockIndex_facts t
  funext j
  show arr7 V c (((cfg0.win 0).blk t).view.emb j)
        + Ideal.exp (arr9 V c (((cfg0.win 1).blk t).view.emb j)) * arr11 V c (((cfg0.win 2).blk t).view.emb j)
      = arr7 V c (((cfg0.win 3).blk t).view.emb j)
        + Ideal.exp (arr9 V c (((cfg0.win 3).blk t).view.emb j)) * arr11 V c (((cfg0.win 3).blk t).view.emb j)
  -- a block's entry at local (r, s) is the array's at (512 * index 0 + r, 256 * index 1 + s): the same place for all four
  have h0 : ((cfg0.win 0).blk t).view.emb j = ((cfg0.win 3).blk t).view.emb j := by
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 256 + 1 * (j 1).val = win0_3.index t (1 : Fin 2) * 256 + 1 * (j 1).val; omega
  have h1 : ((cfg0.win 1).blk t).view.emb j = ((cfg0.win 3).blk t).view.emb j := by
    funext a; apply Fin.ext
    match a with
    | ⟨0, _⟩ => show win0_1.index t (0 : Fin 2) * 512 + 1 * (j 0).val = win0_3.index t (0 : Fin 2) * 512 + 1 * (j 0).val; omega
    | ⟨1, _⟩ => show win0_1.index t (1 : Fin 2) * 256 + 1 * (j 1).val = win0_3.index t (1 : Fin 2) * 256 + 1 * (j 1).val; omega
  have h2 : ((cfg0.win 2).blk t).view.emb j = ((cfg0.win 3).blk t).view.emb j := by
    funext a; apply Fin.ext
    match a with
    | ⟨0, _⟩ => show win0_2.index t (0 : Fin 2) * 512 + 1 * (j 0).val = win0_3.index t (0 : Fin 2) * 512 + 1 * (j 0).val; omega
    | ⟨1, _⟩ => show win0_2.index t (1 : Fin 2) * 256 + 1 * (j 1).val = win0_3.index t (1 : Fin 2) * 256 + 1 * (j 1).val; omega
  rw [h0, h1, h2]

/-! ## The blocks tile the array -/

/-- An index of the array is in point `t`'s block iff each coordinate is in the block's range on its axis. -/
theorem mem_blk3 (t : Fin cfg0.N) (i : S2048x2048.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v12).slice (win0_3.rect t)).set ↔ _
  rw [View.set_slice_whole, Rect.mem_set_unit]
  exact Iff.rfl

/-- Every index (k, n) of the array is in the block of the point whose block index is (k / 512, n / 256). -/
theorem cover3 (i : S2048x2048.Idx) :
    ∃ t : Fin cfg0.N, (cfg0.win 3).flush t = true ∧ i ∈ ((cfg0.win 3).blk t).view.set := by
  have hi0 : (i 0).val < 2048 := (i 0).isLt
  have hi1 : (i 1).val < 2048 := (i 1).isLt
  obtain ⟨t, ht⟩ := blockIndex_onto ⟨(i 0).val / 512, by omega⟩ ⟨(i 1).val / 256, by omega⟩
  have q0 : win0_3.index t (0 : Fin 2) = (i 0).val / 512 := congrFun ht 0
  have q1 : win0_3.index t (1 : Fin 2) = (i 1).val / 256 := congrFun ht 1
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 256 ≤ (i 1).val ∧ (i 1).val < win0_3.index t (1 : Fin 2) * 256 + 256; omega

/-! ## The array after the region -/

/-- The output array after all 32 points is the reparametrisation of the three input arrays. -/
theorem arr12_eq (c : Dev nD) :
    (dat0 (F := Ideal) V c).arrAt 3 cfg0.N = reparam (V c main_v7) (V c main_v9) (V c main_v11) :=
  (dat0 (F := Ideal) V c).arrAt_eq_of_cover 3 (reparam (V c main_v7) (V c main_v9) (V c main_v11))
    (fun t _ => flushed3_eq V c t) cover3

/-- Entry (k, n) of the output array after the region: x0 + exp x1 * x2 at (k, n), in the extended reals. -/
theorem arr12_apply (c : Dev nD) (k n : Fin 2048) :
    (dat0 (F := Ideal) V c).arrAt 3 cfg0.N (ix2 k n)
      = arr7 V c (ix2 k n) + Ideal.exp (arr9 V c (ix2 k n)) * arr11 V c (ix2 k n) :=
  congrFun (arr12_eq V c) (ix2 k n)

end Cert.ReferenceIdeal.Hand

end
-- ==== Proof.RefMatmulRuns.lean ====
/- The reference program's second kernel region — the tiled matrix product with bias, grid 32 × 8 × 4, whose last axis
   is the contraction's — part one: the two conditions of its body in closed form over the grid, where its output
   window is idle, the core's scoped memory around the accumulator, and the body's run in each of its three control
   cases (first, middle, last contraction step). -/
import proofs.«182129_g2000205307259551_pallasbulk_1315_2_alg».proof.Proof.Gen.ReferenceIdeal.Launch
import proofs.«182129_g2000205307259551_pallasbulk_1315_2_alg».proof.Proof.Gen.ReferenceIdeal.Skeleton
import proofs.«182129_g2000205307259551_pallasbulk_1315_2_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Hand

open Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! ## The body's two conditions, over the grid

The grid is 32 × 8 × 4, row-major: point `t` has contraction coordinate `t % 4`. The body starts a fresh
accumulator where that coordinate is 0 and hands the finished block to the output where it is 3. -/

/-- The accumulator is zeroed first: the body's first `scf.if`, from the grid coordinates (contraction coordinate = 0). -/
abbrev atFirstK (i : grid1.Coords) : Prop :=
  Scalar.cmpi .ne (Scalar.extui (Scalar.cmpi .eq (BitVec.ofNat 32 (i 2).val) 0#32)) 0#32 = 1#1

/-- It holds exactly at the points ≡ 0 (mod 4). -/
theorem atFirstK_iff : ∀ t : Fin cfg1.N, atFirstK (grid1.coords t) ↔ t.val % 4 = 0 :=
  (by decide +kernel : ∀ t : Fin grid1.N, atFirstK (grid1.coords t) ↔ t.val % 4 = 0)

/-- The output block is stored: the body's second `scf.if` (contraction coordinate = 3). -/
abbrev atLastK (i : grid1.Coords) : Prop := k1_cond2 i = 1#1

/-- It holds exactly at the points ≡ 3 (mod 4). -/
theorem atLastK_iff : ∀ t : Fin cfg1.N, atLastK (grid1.coords t) ↔ t.val % 4 = 3 :=
  (by decide +kernel : ∀ t : Fin grid1.N, atLastK (grid1.coords t) ↔ t.val % 4 = 3)

/-! ## Where the windows are idle -/

/-- The three input windows are never idle. -/
theorem x_live (t : Fin cfg1.N) : cfg1.idle 0 (grid1.coords t) = false := rfl
theorem w_live (t : Fin cfg1.N) : cfg1.idle 1 (grid1.coords t) = false := rfl
theorem bias_live (t : Fin cfg1.N) : cfg1.idle 2 (grid1.coords t) = false := rfl

/-- Off the last contraction step the body stores nothing into the output window: it is idle there, -/
theorem out_idle_off_lastK : ∀ t : Fin cfg1.N, ¬atLastK (grid1.coords t) → cfg1.idle 3 (grid1.coords t) = true := by decide +kernel
/-- and the pipeline does not write its block back; -/
theorem out_kept_off_lastK : ∀ t : Fin cfg1.N, ¬atLastK (grid1.coords t) → (cfg1.win 3).flush t = false := by decide +kernel
/-- at the last contraction step it is live. -/
theorem out_live_at_lastK : ∀ t : Fin cfg1.N, atLastK (grid1.coords t) → cfg1.idle 3 (grid1.coords t) = false := by decide +kernel

/-! ## The accumulator and the rest of the core's scoped memory -/

/-- The 256 × 256 accumulator: the kernel's scratch operand, a whole scoped buffer carried from point to point. -/
abbrev accBuf : Memref sig .tc .vmem S256x256 .f32 := Memref.whole cc1_scratch0

/-- The core's scoped buffers that are no staging buffer of this region — the first region's eight staging buffers, each
    whole at some contents — with `S` standing where the accumulator stands. -/
def scopedWith (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ S)

/-- What the launch hands the region: those buffers with the accumulator at some contents, and the generator register. -/
theorem PhiA1_eq (c : Dev nD) :
    (Pipeline.ΦA spec1 c : sProp 𝕄)
      = iprop(scopedWith c iprop(∃ d, owns (c : Thread nD τ) accBuf fullShare d) ∗ (∃ r, prngReg c r)) := by
  unfold Pipeline.ΦA scopedWith; rw [scopedRest1_eq]; simp only [accBuf, owns_whole]; try rfl

/-- The accumulator can be taken out of the scoped rest and put back at other contents. -/
theorem scopedWith_swap (c : Dev nD) (S S' : sProp 𝕄) :
    scopedWith c S ⊢ iprop(S ∗ (S' -∗ scopedWith c S')) := by
  unfold scopedWith
  iintro ⟨B0, B1, B2, B3, B4, B5, B6, B7, HS⟩
  isplitl [HS]; · iexact HS
  iintro HS'
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  iexact HS'

/-! ## The body's run, case by case

In each case the body is run once on arbitrary whole memrefs; the pieces its stores leave in the accumulator (and, at
the last contraction step, in the output block) are what the run finds, last store first. Buffers a case does not touch
stay with the caller. -/

set_option maxHeartbeats 1000000 in
/-- FIRST contraction step (coordinate 0): the accumulator, whatever it held, is zeroed, then the product of the two
    blocks is added. -/
noncomputable def runFirst (c : Dev nD) (i : grid1.Coords)
    (arg3 : Memref sig .tc .vmem S256x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S256x256 .f32) (harg7 : arg7.IsWhole) (hF : atFirstK i) (hL : ¬atLastK i)
    (x : Vec F S256x512 .f32) (w : Vec F S512x256 .f32) :
    { LS : List (View.Piece (Elt F) S256x256 .f32) //
      ∀ (E : Set ℕ) (K : PUnit → sProp 𝕄),
        iprop(owns (c : Thread nD τ) arg3 fullShare x ∗ owns (c : Thread nD τ) arg4 fullShare w ∗ (∃ d, owns (c : Thread nD τ) arg7 fullShare d)
            ∗ (iprop(owns (c : Thread nD τ) arg3 fullShare x ∗ owns (c : Thread nD τ) arg4 fullShare w
                ∗ (∃ f, arg7.view.loc (c : Thread nD τ) ↦[arg7.view.set]{fullShare} arg7.view.writes (Elt F) f LS)) -∗ K ⟨⟩))
          ⊢ wp frame (wpE (defs₀ (F := F)) Variants.none c none) E (cc1__matmul_bias_kernel i arg3 harg3 arg4 harg4 arg5 harg5 arg6 harg6 arg7 harg7) K } := by
  refine ⟨?_, fun E K => ?run⟩
  case run =>
    simp only [cc1__matmul_bias_kernel_eq_skeleton]; unfold cc1__matmul_bias_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- MIDDLE contraction steps (coordinates 1 and 2): the product of the two blocks is added to the accumulator as the
    step before left it. -/
noncomputable def runMid (c : Dev nD) (i : grid1.Coords)
    (arg3 : Memref sig .tc .vmem S256x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S256x256 .f32) (harg7 : arg7.IsWhole) (hF : ¬atFirstK i) (hL : ¬atLastK i)
    (x : Vec F S256x512 .f32) (w : Vec F S512x256 .f32) (acc : Vec F S256x256 .f32) :
    { LS : List (View.Piece (Elt F) S256x256 .f32) //
      ∀ (E : Set ℕ) (K : PUnit → sProp 𝕄),
        iprop(owns (c : Thread nD τ) arg3 fullShare x ∗ owns (c : Thread nD τ) arg4 fullShare w ∗ owns (c : Thread nD τ) arg7 fullShare acc
            ∗ (iprop(owns (c : Thread nD τ) arg3 fullShare x ∗ owns (c : Thread nD τ) arg4 fullShare w
                ∗ (∃ f, arg7.view.loc (c : Thread nD τ) ↦[arg7.view.set]{fullShare} arg7.view.writes (Elt F) f LS)) -∗ K ⟨⟩))
          ⊢ wp frame (wpE (defs₀ (F := F)) Variants.none c none) E (cc1__matmul_bias_kernel i arg3 harg3 arg4 harg4 arg5 harg5 arg6 harg6 arg7 harg7) K } := by
  refine ⟨?_, fun E K => ?run⟩
  case run =>
    simp only [cc1__matmul_bias_kernel_eq_skeleton]; unfold cc1__matmul_bias_kernel_skel
    unfold owns
    iintro ⟨⟨%f0, %hf0, H0⟩, ⟨%f1, %hf1, H1⟩, ⟨%fs, %hfs, HS⟩, Hk⟩
    obtain rfl := harg3.eq_unread hf0; obtain rfl := harg4.eq_unread hf1; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- LAST contraction step (coordinate 3): the product is added to the accumulator, and the accumulator plus the bias row,
    broadcast down the rows, is stored over the output block, whatever that held. -/
noncomputable def runLast (c : Dev nD) (i : grid1.Coords)
    (arg3 : Memref sig .tc .vmem S256x512 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S256x256 .f32) (harg7 : arg7.IsWhole) (hF : ¬atFirstK i) (hL : atLastK i)
    (x : Vec F S256x512 .f32) (w : Vec F S512x256 .f32) (b : Vec F S1x256 .f32) (acc : Vec F S256x256 .f32) :
    Σ' (LO : List (View.Piece (Elt F) S256x256 .f32)), { LS : List (View.Piece (Elt F) S256x256 .f32) //
      ∀ (E : Set ℕ) (K : PUnit → sProp 𝕄),
        iprop(owns (c : Thread nD τ) arg3 fullShare x ∗ owns (c : Thread nD τ) arg4 fullShare w ∗ owns (c : Thread nD τ) arg5 fullShare b
            ∗ (∃ d, owns (c : Thread nD τ) arg6 fullShare d) ∗ owns (c : Thread nD τ) arg7 fullShare acc
            ∗ (iprop(owns (c : Thread nD τ) arg3 fullShare x ∗ owns (c : Thread nD τ) arg4 fullShare w ∗ owns (c : Thread nD τ) arg5 fullShare b
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc1__matmul_bias_kernel i arg3 harg3 arg4 harg4 arg5 harg5 arg6 harg6 arg7 harg7) K } := by
  refine ⟨?_, ?_, fun E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.ReferenceIdeal.Hand

end
-- ==== Proof.RefMatmul.lean ====
/- The reference program's second kernel region — the tiled matrix product with bias — part two: what each control case
   of the body leaves in the accumulator and in the output block, as values; the accumulator point by point; the
   pipeline's proof data at arbitrary entry contents, and its body obligation. Generic in the float instance. -/
import proofs.«182129_g2000205307259551_pallasbulk_1315_2_alg».proof.Proof.RefMatmulRuns
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.ReferenceIdeal.Hand

open Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## What each case leaves, as values

Every store of the body is of a whole block, so what a case's found pieces leave in a buffer is the last store's payload,
whatever the buffer is and whatever it held: the accumulation step `k1_pay2` of the two input blocks over the accumulator
(over the zero block `k1_pay1` at the first step), and at the last step the output payload `k1_pay3` of the new accumulator
and the bias row. -/

section Pieces

variable (c : Dev nD) (i : grid1.Coords)
  (arg3 : Memref sig .tc .vmem S256x512 .f32) (harg3 : arg3.IsWhole) (arg4 : Memref sig .tc .vmem S512x256 .f32) (harg4 : arg4.IsWhole)
  (arg5 : Memref sig .tc .vmem S1x256 .f32) (harg5 : arg5.IsWhole) (arg6 : Memref sig .tc .vmem S256x256 .f32) (harg6 : arg6.IsWhole)
  (arg7 : Memref sig .tc .vmem S256x256 .f32) (harg7 : arg7.IsWhole)
  (x : Vec F S256x512 .f32) (w : Vec F S512x256 .f32) (b : Vec F S1x256 .f32) (acc : Vec F S256x256 .f32)

theorem runFirst_cover (hF : atFirstK i) (hL : ¬atLastK i) (y : S256x256.Idx) :
    ∃ pc ∈ (runFirst c i arg3 harg3 arg4 harg4 arg5 harg5 arg6 harg6 arg7 harg7 hF hL x w).1, y ∈ pc.1.set :=
  View.cover_of_tiledL (runFirst c i arg3 harg3 arg4 harg4 arg5 harg5 arg6 harg6 arg7 harg7 hF hL x w).1 S256x256.size (by sl_kernel_rfl) y

theorem runMid_cover (hF : ¬atFirstK i) (hL : ¬atLastK i) (y : S256x256.Idx) :
    ∃ pc ∈ (runMid c i arg3 harg3 arg4 harg4 arg5 harg5 arg6 harg6 arg7 harg7 hF hL x w acc).1, y ∈ pc.1.set :=
  View.cover_of_tiledL (runMid c i arg3 harg3 arg4 harg4 arg5 harg5 arg6 harg6 arg7 harg7 hF hL x w acc).1 S256x256.size (by sl_kernel_rfl) y

theorem runLast_cover_acc (hF : ¬atFirstK i) (hL : atLastK i) (y : S256x256.Idx) :
    ∃ pc ∈ (runLast c i arg3 harg3 arg4 harg4 arg5 harg5 arg6 harg6 arg7 harg7 hF hL x w b acc).2.1, y ∈ pc.1.set :=
  View.cover_of_tiledL (runLast c i arg3 harg3 arg4 harg4 arg5 harg5 arg6 harg6 arg7 harg7 hF hL x w b acc).2.1 S256x256.size (by sl_kernel_rfl) y

theorem runLast_cover_out (hF : ¬atFirstK i) (hL : atLastK i) (y : S256x256.Idx) :
    ∃ pc ∈ (runLast c i arg3 harg3 arg4 harg4 arg5 harg5 arg6 harg6 arg7 harg7 hF hL x w b acc).1, y ∈ pc.1.set :=
  View.cover_of_tiledL (runLast c i arg3 harg3 arg4 harg4 arg5 harg5 arg6 harg6 arg7 harg7 hF hL x w b acc).1 S256x256.size (by sl_kernel_rfl) y

variable {sig' : RefSig} {κ' : Kind} {sp' : Space} (v : View sig' κ' sp' S256x256 .f32) (f : v.ty.Contents (Elt F))

/-- The first step leaves the product of the blocks added to the zero block. -/
theorem runFirst_leaves (hF : atFirstK i) (hL : ¬atLastK i) :
    v.read (Elt F) (v.writes (Elt F) f (runFirst c i arg3 harg3 arg4 harg4 arg5 harg5 arg6 harg6 arg7 harg7 hF hL x w).1)
      = k1_pay2 x w (k1_pay1 (F := F)) := by
  rw [View.read_writes_eq_canon _ _ _ (runFirst_cover c i arg3 harg3 arg4 harg4 arg5 harg5 arg6 harg6 arg7 harg7 x w hF hL)]
  unfold runFirst
  dsimp only
  sl_unfold_words
  rw [View.canon_cons_unit_zero (S := S256x256) hz2, View.readCov_unit_zero (S := S256x256) _ hz2]
  simp only [View.readAt_eq_ld, harg3.read_unread, harg4.read_unread, View.ld_unit_zero (S := S256x512) hz2,
    View.ld_unit_zero (S := S512x256) hz2]

/-- A middle step leaves the product of the blocks added to the accumulator. -/
theorem runMid_leaves (hF : ¬atFirstK i) (hL : ¬atLastK i) :
    v.read (Elt F) (v.writes (Elt F) f (runMid c i arg3 harg3 arg4 harg4 arg5 harg5 arg6 harg6 arg7 harg7 hF hL x w acc).1)
      = k1_pay2 x w acc := by
  rw [View.read_writes_eq_canon _ _ _ (runMid_cover c i arg3 harg3 arg4 harg4 arg5 harg5 arg6 harg6 arg7 harg7 x w acc hF hL)]
  unfold runMid
  dsimp only
  sl_unfold_words
  rw [View.canon_unit_zero (S := S256x256) hz2]
  simp only [View.readAt_eq_ld, harg3.read_unread, harg4.read_unread, harg7.read_unread, View.ld_unit_zero (S := S256x512) hz2,
    View.ld_unit_zero (S := S512x256) hz2, View.ld_unit_zero (S := S256x256) hz2]

/-- The last step leaves the same in the accumulator, -/
theorem runLast_leaves_acc (hF : ¬atFirstK i) (hL : atLastK i) :
    v.read (Elt F) (v.writes (Elt F) f (runLast c i arg3 harg3 arg4 harg4 arg5 harg5 arg6 harg6 arg7 harg7 hF hL x w b acc).2.1)
      = k1_pay2 x w acc := by
  rw [View.read_writes_eq_canon _ _ _ (runLast_cover_acc c i arg3 harg3 arg4 harg4 arg5 harg5 arg6 harg6 arg7 harg7 x w b acc hF hL)]
  unfold runLast
  dsimp only
  sl_unfold_words
  rw [View.canon_unit_zero (S := S256x256) hz2]
  simp only [View.readAt_eq_ld, harg3.read_unread, harg4.read_unread, harg7.read_unread, View.ld_unit_zero (S := S256x512) hz2,
    View.ld_unit_zero (S := S512x256) hz2, View.ld_unit_zero (S := S256x256) hz2]

/-- and the new accumulator plus the broadcast bias row in the output block. -/
theorem runLast_leaves_out (hF : ¬atFirstK i) (hL : atLastK i) :
    v.read (Elt F) (v.writes (Elt F) f (runLast c i arg3 harg3 arg4 harg4 arg5 harg5 arg6 harg6 arg7 harg7 hF hL x w b acc).1)
      = k1_pay3 (k1_pay2 x w acc) b := by
  rw [View.read_writes_eq_canon _ _ _ (runLast_cover_out c i arg3 harg3 arg4 harg4 arg5 harg5 arg6 harg6 arg7 harg7 x w b acc hF hL)]
  unfold runLast
  dsimp only
  sl_unfold_words
  rw [View.canon_unit_zero (S := S256x256) hz2, View.readCov_unit_zero (S := S256x256) _ hz2]
  simp only [View.readAt_eq_ld, harg3.read_unread, harg4.read_unread, harg5.read_unread, harg7.read_unread,
    View.ld_unit_zero (S := S256x512) hz2, View.ld_unit_zero (S := S512x256) hz2, View.ld_unit_zero (S := S256x256) hz2,
    View.ld_unit_zero (S := S1x256) hz2]

end Pieces

/-! # The region, at the contents `V` it is entered with -/

section Region

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the bias row is
    fetched only where the contraction coordinate is 0, and its block index does not move in between), for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The three input blocks at a point, at their literal types: 256 rows of `x` by 512 contraction indices; those 512
    by 256 columns of `w`; the 256 columns' bias entries. -/
abbrev xBlk (c : Dev nD) (t : Fin cfg1.N) : Vec F S256x512 .f32 := iblk1 V c 0 t
abbrev wBlk (c : Dev nD) (t : Fin cfg1.N) : Vec F S512x256 .f32 := iblk1 V c 1 t
abbrev biasBlk (c : Dev nD) (t : Fin cfg1.N) : Vec F S1x256 .f32 := iblk1 V c 2 t

/-! ## The accumulator, point by point -/

/-- THE ACCUMULATION. What the accumulator holds after the body at point `n`: the point's partial product added to
    the zero block where the contraction starts (`n ≡ 0` mod 4), else to what the point before left. -/
def accAt (c : Dev nD) : (n : ℕ) → n < cfg1.N → Vec F S256x256 .f32
  | 0, hn => k1_pay2 (xBlk V c ⟨0, hn⟩) (wBlk V c ⟨0, hn⟩) (k1_pay1 (F := F))
  | n + 1, hn => k1_pay2 (xBlk V c ⟨n + 1, hn⟩) (wBlk V c ⟨n + 1, hn⟩)
      (if (n + 1) % 4 = 0 then k1_pay1 (F := F) else accAt c n (Nat.lt_of_succ_lt hn))

/-- At the start of a contraction: over the zero block. -/
theorem accAt_first (c : Dev nD) (t : Fin cfg1.N) (h : t.val % 4 = 0) :
    accAt V c t.val t.isLt = k1_pay2 (xBlk V c t) (wBlk V c t) (k1_pay1 (F := F)) := by
  obtain ⟨n, hn⟩ := t
  cases n with
  | zero => rfl
  | succ n => show accAt V c (n + 1) hn = _; rw [accAt, if_pos h]

/-- Elsewhere: over what the point before left. -/
theorem accAt_next (c : Dev nD) (t : Fin cfg1.N) (h : ¬t.val % 4 = 0) :
    accAt V c t.val t.isLt
      = k1_pay2 (xBlk V c t) (wBlk V c t) (accAt V c (t.val - 1) (Nat.lt_of_le_of_lt (Nat.sub_le _ _) t.isLt)) := by
  obtain ⟨n, hn⟩ := t
  cases n with
  | zero => exact absurd (Nat.zero_mod _) h
  | succ n => show accAt V c (n + 1) hn = _; rw [accAt, if_neg h]; rfl

/-- The region's invariant before position `n`: before the first point what the launch hands it; afterwards the scoped
    rest with the accumulator at what the point before left, and the generator register at some state. -/
def accInv (c : Dev nD) : (n : ℕ) → n ≤ cfg1.N → sProp 𝕄
  | 0, _ => Pipeline.ΦA spec1 c
  | n + 1, hn => iprop(scopedWith c (owns (c : Thread nD τ) accBuf fullShare (accAt V c n hn)) ∗ (∃ r, prngReg c r))

theorem accInv_zero (c : Dev nD) (n : ℕ) (h : n ≤ cfg1.N) (hz : n = 0) : accInv V c n h = Pipeline.ΦA spec1 c := by
  subst hz; rfl

theorem accInv_succ (c : Dev nD) (n : ℕ) (hn : n < cfg1.N) :
    accInv V c (n + 1) hn = iprop(scopedWith c (owns (c : Thread nD τ) accBuf fullShare (accAt V c n hn)) ∗ (∃ r, prngReg c r)) := rfl

theorem accInv_pos (c : Dev nD) (n : ℕ) (h : n ≤ cfg1.N) (hz : n ≠ 0) :
    accInv V c n h = iprop(scopedWith c (owns (c : Thread nD τ) accBuf fullShare (accAt V c (n - 1) (by omega))) ∗ (∃ r, prngReg c r)) := by
  cases n with
  | zero => exact absurd rfl hz
  | succ n => rfl

/-- At any position the invariant gives the launch's form back: the accumulator's contents forgotten. -/
theorem accInv_forget (c : Dev nD) (n : ℕ) (h : n ≤ cfg1.N) :
    accInv V c n h ⊢ iprop(scopedWith c iprop(∃ d, owns (c : Thread nD τ) accBuf fullShare d) ∗ (∃ r, prngReg c r)) := by
  by_cases hz : n = 0
  · rw [accInv_zero V c n h hz, PhiA1_eq]
  · rw [accInv_pos V c n h hz]
    iintro ⟨HR, Hg⟩
    isplitl [HR]
    · ihave HR' := (scopedWith_swap c _ iprop(∃ d, owns (c : Thread nD τ) accBuf fullShare d)) $$ HR
      icases HR' with ⟨HS, Hback⟩
      iapply Hback
      iexists _; iexact HS
    iexact Hg

/-! ## The pipeline's proof data -/

/-- The proof data of this pipeline on core `c`: the arrays as the region finds them; after the body at point `t` each
    input's buffer at its block, the output's at the accumulator after `t` plus the broadcast bias row (consulted only
    where the block is stored: the last contraction step); the invariant `accInv`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt V c t.val t.isLt) (biasBlk V c t)
  Φ t := accInv V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (accAt V c t.val t.isLt) (biasBlk V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The invariant at a point's start, restated at the point's number. -/
theorem accInv_castSucc (c : Dev nD) (t : Fin cfg1.N) :
    (dat1 V c).Φ t.castSucc = accInv V c t.val (Nat.le_of_lt t.isLt) := by
  dsimp only [dat1]; simp only [Fin.coe_castSucc]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's number mod 4 says which case runs. The
    invariant lends the accumulator — at anything where the contraction starts, at what the point before left elsewhere —
    and takes it back at this point's contents; off the last step the output's buffer stays with the caller untouched
    (the window is idle and not written back there); at the last step it comes back at the accumulator plus bias. -/
theorem body_at (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = accInv V c (t.val + 1) t.isLt from rfl, accInv_succ]
  rw [show (dat1 V c).leavesExact 0 t = owns (c : Thread nD τ) (st1_0 t) fullShare ((dat1 V c).after 0 t) from by
        unfold Dat.leavesExact; rw [x_live t], after1_0,
    show (dat1 V c).leavesExact 1 t = owns (c : Thread nD τ) (st1_1 t) fullShare ((dat1 V c).after 1 t) from by
        unfold Dat.leavesExact; rw [w_live t], after1_1,
    show (dat1 V c).leavesExact 2 t = owns (c : Thread nD τ) (st1_2 t) fullShare ((dat1 V c).after 2 t) from by
        unfold Dat.leavesExact; rw [bias_live t], after1_2]
  have hp : t.val - 1 < cfg1.N := Nat.lt_of_le_of_lt (Nat.sub_le _ _) t.isLt
  by_cases hF : t.val % 4 = 0
  · -- the contraction starts here
    have hcF : atFirstK (grid1.coords t) := (atFirstK_iff t).mpr hF
    have hcL : ¬atLastK (grid1.coords t) := fun h => by have := (atLastK_iff t).mp h; omega
    rw [Dat.leavesExact_idle (dat1 V c) 3 t (out_idle_off_lastK t hcL) (out_kept_off_lastK t hcL)]
    rw [accAt_first V c t hF, accInv_castSucc V c t]
    iintro ⟨HΦ, Ho, ⟨%d0, H0⟩, ⟨%d1, H1⟩, ⟨%d2, H2⟩, H3⟩
    ihave HΦ' := (accInv_forget V c t.val (Nat.le_of_lt t.isLt)) $$ HΦ
    icases HΦ' with ⟨HR, Hg⟩
    ihave HR' := (scopedWith_swap c _ iprop(owns (c : Thread nD τ) accBuf fullShare (k1_pay2 (xBlk V c t) (wBlk V c t) (k1_pay1 (F := F))))) $$ HR
    icases HR' with ⟨HS, Hback⟩
    iapply ((runFirst c (grid1.coords t) _ _ _ _ _ _ _ _ _ _ hcF hcL (xBlk V c t) (wBlk V c t)).2 Set.univ _)
    isplitl [H0]; · iexact H0
    isplitl [H1]; · iexact H1
    isplitl [HS]; · iexact HS
    iintro ⟨H0, H1, ⟨%es, HS⟩⟩
    isplitl [HS Hback Hg]
    · isplitl [HS Hback]
      · iapply Hback
        unfold owns; iexists _; isplitr
        swap; · iexact HS
        ipureintro; exact runFirst_leaves c _ _ _ _ _ _ _ _ _ _ _ _ _ _ _ hcF hcL
      iexact Hg
    isplitl [Ho]; · iexact Ho
    isplitl [H0]; · iexact H0
    isplitl [H1]; · iexact H1
    isplitl [H2]; · iexact H2
    iexact H3
  · have hcF : ¬atFirstK (grid1.coords t) := fun h => hF ((atFirstK_iff t).mp h)
    have hz : t.val ≠ 0 := fun e => hF (by rw [e])
    by_cases hL : t.val % 4 = 3
    · -- the contraction ends here
      have hcL : atLastK (grid1.coords t) := (atLastK_iff t).mpr hL
      rw [show (dat1 V c).leavesExact 3 t = owns (c : Thread nD τ) (st1_3 t) fullShare ((dat1 V c).after 3 t) from by
            unfold Dat.leavesExact; rw [out_live_at_lastK t hcL], after1_3]
      rw [accAt_next V c t hF, accInv_castSucc V c t, accInv_pos V c _ _ hz]
      iintro ⟨⟨HR, Hg⟩, Ho, ⟨%d0, H0⟩, ⟨%d1, H1⟩, ⟨%d2, H2⟩, ⟨%d3, H3⟩⟩
      ihave HR' := (scopedWith_swap c _ iprop(owns (c : Thread nD τ) accBuf fullShare (k1_pay2 (xBlk V c t) (wBlk V c t) (accAt V c (t.val - 1) hp)))) $$ HR
      icases HR' with ⟨HS, Hback⟩
      iapply ((runLast c (grid1.coords t) _ _ _ _ _ _ _ _ _ _ hcF hcL (xBlk V c t) (wBlk V c t) (biasBlk V c t) (accAt V c (t.val - 1) hp)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hback Hg]
      · isplitl [HS Hback]
        · iapply Hback
          unfold owns; iexists _; isplitr
          swap; · iexact HS
          ipureintro; exact runLast_leaves_acc c _ _ _ _ _ _ _ _ _ _ _ _ _ _ _ _ _ hcF hcL
        iexact Hg
      isplitl [Ho]; · iexact Ho
      isplitl [H0]; · iexact H0
      isplitl [H1]; · iexact H1
      isplitl [H2]; · iexact H2
      unfold owns; iexists _; isplitr
      swap; · iexact H3
      ipureintro; exact runLast_leaves_out c _ _ _ _ _ _ _ _ _ _ _ _ _ _ _ _ _ hcF hcL
    · -- a middle step
      have hcL : ¬atLastK (grid1.coords t) := fun h => hL ((atLastK_iff t).mp h)
      rw [Dat.leavesExact_idle (dat1 V c) 3 t (out_idle_off_lastK t hcL) (out_kept_off_lastK t hcL)]
      rw [accAt_next V c t hF, accInv_castSucc V c t, accInv_pos V c _ _ hz]
      iintro ⟨⟨HR, Hg⟩, Ho, ⟨%d0, H0⟩, ⟨%d1, H1⟩, ⟨%d2, H2⟩, H3⟩
      ihave HR' := (scopedWith_swap c _ iprop(owns (c : Thread nD τ) accBuf fullShare (k1_pay2 (xBlk V c t) (wBlk V c t) (accAt V c (t.val - 1) hp)))) $$ HR
      icases HR' with ⟨HS, Hback⟩
      iapply ((runMid c (grid1.coords t) _ _ _ _ _ _ _ _ _ _ hcF hcL (xBlk V c t) (wBlk V c t) (accAt V c (t.val - 1) hp)).2 Set.univ _)
      isplitl [H0]; · iexact H0
      isplitl [H1]; · iexact H1
      isplitl [HS]; · iexact HS
      iintro ⟨H0, H1, ⟨%es, HS⟩⟩
      isplitl [HS Hback Hg]
      · isplitl [HS Hback]
        · iapply Hback
          unfold owns; iexists _; isplitr
          swap; · iexact HS
          ipureintro; exact runMid_leaves c _ _ _ _ _ _ _ _ _ _ _ _ _ _ _ _ hcF hcL
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact body_at V c t

/-- What the launch hands the region is the invariant before the first point. -/
theorem hin1 (c : Dev nD) : Pipeline.ΦA spec1 c ⊢ (dat1 V c).Φ 0 := by
  rw [show (dat1 V c).Φ 0 = accInv V c 0 (Nat.zero_le _) from rfl, accInv_zero V c 0 _ rfl]

/-- After the last point the invariant gives it back: the accumulator's contents are forgotten. -/
theorem hout1 (c : Dev nD) : (dat1 V c).Φ (Fin.last cfg1.N) ⊢ Pipeline.ΦA spec1 c := by
  rw [show (dat1 V c).Φ (Fin.last cfg1.N) = accInv V c (Fin.last cfg1.N).val (Nat.le_of_lt_succ (Fin.last cfg1.N).isLt) from rfl, PhiA1_eq]
  exact accInv_forget V c _ _

end Region

end Cert.ReferenceIdeal.Hand

end
-- ==== Proof.RefMatmulValue.lean ====
/- The reference program's second kernel region at the ideal values: its output array after the run, entry by entry —
   the four partial products of 512 contraction indices each, added in the grid's order onto zero, plus the bias entry of
   the column. The body's payloads are read at an index, the accumulator is followed through the four points of one
   contraction, each input block is read off its array, and the output's blocks, one per (row block, column block) at the
   last contraction step, tile the array. -/
import proofs.«182129_g2000205307259551_pallasbulk_1315_2_alg».proof.Proof.RefMatmul
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.ReferenceIdeal.Hand

open Idealize.ShloMosaic Idealize.ShloMosaic.TcCoe Idealize.SL.Sem
open Idealize.ShloMosaic.Pipeline (Dat)
open Idealize.ShloMosaic.ValueIdx
open Cert.ReferenceIdeal Cert.ReferenceIdeal.Gen

/-! ## The body's payloads, generic in the float instance: the shape casts are identities -/

section Payloads
variable {F : FTy → Type} [FloatOps F]

theorem step_eq (x : Vec F S256x512 .f32) (w : Vec F S512x256 .f32) (acc : Vec F S256x256 .f32) :
    k1_pay2 x w acc = addf acc (matmul dot_S256x512_S512x256_S256x256_1_0_0_1_n_n none x w (constant S256x256 .f32 0x00000000#32)) := by
  unfold k1_pay2
  simp only [shapeCast_self]

theorem zero_eq : (k1_pay1 (F := F)) = broadcast S256x256 (Scalar.ofBits .f32 0x00000000#32) := by
  unfold k1_pay1
  simp only [shapeCast_self]

theorem out_eq (acc : Vec F S256x256 .f32) (b : Vec F S1x256 .f32) :
    k1_pay3 acc b = addf acc (broadcastTo S256x256 b broadcasts_S1x256_S256x256) := by
  unfold k1_pay3
  simp only [shapeCast_self]

end Payloads

/-! ## The contraction's operand indices, axis by axis -/

theorem lhs_row (i : S256x256.Idx) (q : dot_S256x512_S512x256_S256x256_1_0_0_1_n_n.contr.Idx) :
    (dot_S256x512_S512x256_S256x256_1_0_0_1_n_n.lhsIdx i q 0).val = (i 0).val := by
  unfold DotDims.lhsIdx
  rw [dif_neg (show ¬(0 : Fin S256x512.rank) ∈ dot_S256x512_S512x256_S256x256_1_0_0_1_n_n.lhsBatch by decide),
    dif_pos (show (0 : Fin S256x512.rank) ∈ dot_S256x512_S512x256_S256x256_1_0_0_1_n_n.lhsNonContracting by decide)]
  rfl
theorem lhs_contr (i : S256x256.Idx) (q : dot_S256x512_S512x256_S256x256_1_0_0_1_n_n.contr.Idx) :
    (dot_S256x512_S512x256_S256x256_1_0_0_1_n_n.lhsIdx i q 1).val = (q ⟨0, by decide⟩).val :=
  dot_S256x512_S512x256_S256x256_1_0_0_1_n_n.lhsIdx_val_of_single rfl i q
theorem rhs_contr (i : S256x256.Idx) (q : dot_S256x512_S512x256_S256x256_1_0_0_1_n_n.contr.Idx) :
    (dot_S256x512_S512x256_S256x256_1_0_0_1_n_n.rhsIdx i q 0).val = (q ⟨0, by decide⟩).val :=
  dot_S256x512_S512x256_S256x256_1_0_0_1_n_n.rhsIdx_val_of_single rfl i q
theorem rhs_col (i : S256x256.Idx) (q : dot_S256x512_S512x256_S256x256_1_0_0_1_n_n.contr.Idx) :
    (dot_S256x512_S512x256_S256x256_1_0_0_1_n_n.rhsIdx i q 1).val = (i 1).val := by
  unfold DotDims.rhsIdx
  rw [dif_neg (show ¬(1 : Fin S512x256.rank) ∈ dot_S256x512_S512x256_S256x256_1_0_0_1_n_n.rhsBatch by decide),
    dif_pos (show (1 : Fin S512x256.rank) ∈ dot_S256x512_S512x256_S256x256_1_0_0_1_n_n.rhsNonContracting by decide)]
  rfl

/-! ## The payloads at an index, at the ideal values -/

/-- The zero block reads 0. -/
theorem zero_apply (r q : Fin 256) : (k1_pay1 (F := Ideal)) (ix2 r q) = 0 := by
  rw [zero_eq]
  show Ideal.ofBits .f32 0x00000000#32 = 0
  exact Ideal.ofBits_zero_f32

/-- One accumulation step adds the row's product with the column over the block's 512 contraction indices. -/
theorem step_apply (x : Vec Ideal S256x512 .f32) (w : Vec Ideal S512x256 .f32) (acc : Vec Ideal S256x256 .f32) (r q : Fin 256) :
    k1_pay2 x w acc (ix2 r q) = acc (ix2 r q) + ∑ k : Fin 512, x (ix2 r k) * w (ix2 k q) := by
  rw [step_eq]
  show (acc (ix2 r q) : EReal) + (FloatOps.matmul (F := Ideal) dot_S256x512_S512x256_S256x256_1_0_0_1_n_n none x w (constant (F := Ideal) S256x256 .f32 0x00000000#32) (ix2 r q) : EReal) = _
  rw [Ideal.matmul_constant_zero_apply, ← Equiv.sum_comp (contrEquiv1 dot_S256x512_S512x256_S256x256_1_0_0_1_n_n 512 rfl rfl).symm]
  refine congrArg ((acc (ix2 r q) : EReal) + ·) (Finset.sum_congr rfl fun k _ => ?_)
  have hk := contrEquiv1_symm_val dot_S256x512_S512x256_S256x256_1_0_0_1_n_n 512 rfl rfl k
  have el : dot_S256x512_S512x256_S256x256_1_0_0_1_n_n.lhsIdx (ix2 r q) ((contrEquiv1 dot_S256x512_S512x256_S256x256_1_0_0_1_n_n 512 rfl rfl).symm k) = ix2 r k :=
    funext fun a => Fin.ext (by
      match a with
      | ⟨0, _⟩ => exact lhs_row _ _
      | ⟨1, _⟩ => exact (lhs_contr _ _).trans hk)
  have er : dot_S256x512_S512x256_S256x256_1_0_0_1_n_n.rhsIdx (ix2 r q) ((contrEquiv1 dot_S256x512_S512x256_S256x256_1_0_0_1_n_n 512 rfl rfl).symm k) = ix2 k q :=
    funext fun a => Fin.ext (by
      match a with
      | ⟨0, _⟩ => exact (rhs_contr _ _).trans hk
      | ⟨1, _⟩ => exact rhs_col _ _)
  rw [el, er]

/-- The stored block adds the column's bias entry. -/
theorem out_apply (acc : Vec Ideal S256x256 .f32) (b : Vec Ideal S1x256 .f32) (r q : Fin 256) :
    k1_pay3 acc b (ix2 r q) = acc (ix2 r q) + b (ix2 0 q) := by
  rw [out_eq]
  show (acc (ix2 r q) : EReal) + (broadcastTo S256x256 b broadcasts_S1x256_S256x256 (ix2 r q) : EReal) = _
  refine congrArg ((acc (ix2 r q) : EReal) + ·) (broadcastTo_apply b _ (ix2 r q) (ix2 0 q) fun a => ?_)
  match a with
  | ⟨0, _⟩ => rfl
  | ⟨1, _⟩ => rfl

/-! ## The printed index maps over the grid

Point `t` of the 32 × 8 × 4 grid is row block `t / 32`, column block `(t / 4) % 8`, contraction block `t % 4`. -/

theorem idx_x : ∀ t : Fin cfg1.N, win1_0.index t (0 : Fin 2) = t.val / 32 ∧ win1_0.index t (1 : Fin 2) = t.val % 4 :=
  (by decide +kernel : ∀ t : Fin grid1.N, win1_0.index t (0 : Fin 2) = t.val / 32 ∧ win1_0.index t (1 : Fin 2) = t.val % 4)
theorem idx_w : ∀ t : Fin cfg1.N, win1_1.index t (0 : Fin 2) = t.val % 4 ∧ win1_1.index t (1 : Fin 2) = t.val / 4 % 8 :=
  (by decide +kernel : ∀ t : Fin grid1.N, win1_1.index t (0 : Fin 2) = t.val % 4 ∧ win1_1.index t (1 : Fin 2) = t.val / 4 % 8)
theorem idx_bias : ∀ t : Fin cfg1.N, win1_2.index t (0 : Fin 2) = 0 ∧ win1_2.index t (1 : Fin 2) = t.val / 4 % 8 :=
  (by decide +kernel : ∀ t : Fin grid1.N, win1_2.index t (0 : Fin 2) = 0 ∧ win1_2.index t (1 : Fin 2) = t.val / 4 % 8)
theorem idx_out : ∀ t : Fin cfg1.N, win1_3.index t (0 : Fin 2) = t.val / 32 ∧ win1_3.index t (1 : Fin 2) = t.val / 4 % 8 :=
  (by decide +kernel : ∀ t : Fin grid1.N, win1_3.index t (0 : Fin 2) = t.val / 32 ∧ win1_3.index t (1 : Fin 2) = t.val / 4 % 8)

section Blocks
variable {F : FTy → Type} [FloatOps F]
variable (V : (c : Dev nD) → (b : Ref sig .tc) → Buf (Elt F) ((c : Thread nD τ).loc b))

/-- The three arrays the region reads, at their literal types: `x` (8192 × 2048), `w` (2048 × 2048), the bias row. -/
abbrev xArr (c : Dev nD) : Vec F S8192x2048 .f32 := V c main_v5
abbrev wArr (c : Dev nD) : Vec F S2048x2048 .f32 := V c main_v12
abbrev biasArr (c : Dev nD) : Vec F S1x2048 .f32 := V c main_v4

/-- The `x` block at point `t`: rows `256 (t / 32) + r`, contraction indices `512 (t % 4) + k`. -/
theorem xBlk_apply (c : Dev nD) (t : Fin cfg1.N) (r : Fin 256) (k : Fin 512) (i : S8192x2048.Idx)
    (h0 : (i 0).val = 256 * (t.val / 32) + r.val) (h1 : (i 1).val = 512 * (t.val % 4) + k.val) :
    xBlk V c t (ix2 r k) = xArr V c i := by
  obtain ⟨e0, e1⟩ := idx_x t
  show iblk1 V c 0 t (ix2 r k) = _
  unfold iblk1
  rw [View.read_apply]
  show (V c main_v5 : S8192x2048.Idx → Elt F .f32) _ = V c main_v5 i
  congr 1
  funext a
  apply Fin.ext
  match a with
  | ⟨0, _⟩ => show win1_0.index t (0 : Fin 2) * 256 + 1 * r.val = (i 0).val; rw [e0, h0]; omega
  | ⟨1, _⟩ => show win1_0.index t (1 : Fin 2) * 512 + 1 * k.val = (i 1).val; rw [e1, h1]; omega

/-- The `w` block at point `t`: contraction indices `512 (t % 4) + k`, columns `256 ((t / 4) % 8) + q`. -/
theorem wBlk_apply (c : Dev nD) (t : Fin cfg1.N) (k : Fin 512) (q : Fin 256) (i : S2048x2048.Idx)
    (h0 : (i 0).val = 512 * (t.val % 4) + k.val) (h1 : (i 1).val = 256 * (t.val / 4 % 8) + q.val) :
    wBlk V c t (ix2 k q) = wArr V c i := by
  obtain ⟨e0, e1⟩ := idx_w t
  show iblk1 V c 1 t (ix2 k q) = _
  unfold iblk1
  rw [View.read_apply]
  show (V c main_v12 : S2048x2048.Idx → Elt F .f32) _ = V c main_v12 i
  congr 1
  funext a
  apply Fin.ext
  match a with
  | ⟨0, _⟩ => show win1_1.index t (0 : Fin 2) * 512 + 1 * k.val = (i 0).val; rw [e0, h0]; omega
  | ⟨1, _⟩ => show win1_1.index t (1 : Fin 2) * 256 + 1 * q.val = (i 1).val; rw [e1, h1]; omega

/-- The bias block at point `t`: columns `256 ((t / 4) % 8) + q` of the one row. -/
theorem biasBlk_apply (c : Dev nD) (t : Fin cfg1.N) (q : Fin 256) (i : S1x2048.Idx)
    (h1 : (i 1).val = 256 * (t.val / 4 % 8) + q.val) :
    biasBlk V c t (ix2 0 q) = biasArr V c i := by
  obtain ⟨e0, e1⟩ := idx_bias t
  have h0 : (i 0).val = 0 := by have := idx2_lt0 i; omega
  show iblk1 V c 2 t (ix2 0 q) = _
  unfold iblk1
  rw [View.read_apply]
  show (V c main_v4 : S1x2048.Idx → Elt F .f32) _ = V c main_v4 i
  congr 1
  funext a
  apply Fin.ext
  match a with
  | ⟨0, _⟩ => show win1_2.index t (0 : Fin 2) * 1 + 1 * (0 : Fin 1).val = (i 0).val; rw [e0, h0]; rfl
  | ⟨1, _⟩ => show win1_2.index t (1 : Fin 2) * 256 + 1 * q.val = (i 1).val; rw [e1, h1]; omega

/-- THE ACCUMULATOR OVER ONE CONTRACTION. At the last of its four points the accumulator is the four steps, in the
    grid's order, over the zero block. -/
theorem accAt_contraction (c : Dev nD) (t : Fin cfg1.N) (h3 : t.val % 4 = 3)
    (p1 : t.val - 1 < cfg1.N) (p2 : t.val - 1 - 1 < cfg1.N) (p3 : t.val - 1 - 1 - 1 < cfg1.N) :
    accAt V c t.val t.isLt
      = k1_pay2 (xBlk V c t) (wBlk V c t)
          (k1_pay2 (xBlk V c ⟨t.val - 1, p1⟩) (wBlk V c ⟨t.val - 1, p1⟩)
            (k1_pay2 (xBlk V c ⟨t.val - 1 - 1, p2⟩) (wBlk V c ⟨t.val - 1 - 1, p2⟩)
              (k1_pay2 (xBlk V c ⟨t.val - 1 - 1 - 1, p3⟩) (wBlk V c ⟨t.val - 1 - 1 - 1, p3⟩) (k1_pay1 (F := F))))) := by
  refine (accAt_next V c t (by omega)).trans (congrArg (k1_pay2 (xBlk V c t) (wBlk V c t)) ?_)
  refine (accAt_next V c ⟨t.val - 1, p1⟩ (by show ¬(t.val - 1) % 4 = 0; omega)).trans
    (congrArg (k1_pay2 (xBlk V c ⟨t.val - 1, p1⟩) (wBlk V c ⟨t.val - 1, p1⟩)) ?_)
  refine (accAt_next V c ⟨t.val - 1 - 1, p2⟩ (by show ¬(t.val - 1 - 1) % 4 = 0; omega)).trans
    (congrArg (k1_pay2 (xBlk V c ⟨t.val - 1 - 1, p2⟩) (wBlk V c ⟨t.val - 1 - 1, p2⟩)) ?_)
  exact accAt_first V c ⟨t.val - 1 - 1 - 1, p3⟩ (by show (t.val - 1 - 1 - 1) % 4 = 0; omega)

end Blocks

/-! ## The result, entry by entry -/

section Result
variable (V : (c : Dev nD) → (b : Ref sig .tc) → Buf (Elt Ideal) ((c : Thread nD τ).loc b))

/-- The partial product of contraction block `j` at entry `(b, n)`: `∑ k < 512, x[b, 512 j + k] · w[512 j + k, n]`. -/
def partialDot (c : Dev nD) (j : Fin 4) (b : Fin 8192) (n : Fin 2048) : EReal :=
  ∑ k : Fin 512, xArr V c (ix2 b (⟨512 * j.val + k.val, by have := j.isLt; have := k.isLt; omega⟩ : Fin 2048))
    * wArr V c (ix2 (⟨512 * j.val + k.val, by have := j.isLt; have := k.isLt; omega⟩ : Fin 2048) n)

/-- What the region leaves at entry `(b, n)` of its output: the four partial products added in order onto zero, plus
    the column's bias. -/
def resultAt (c : Dev nD) (b : Fin 8192) (n : Fin 2048) : EReal :=
  ((((0 + partialDot V c 0 b n) + partialDot V c 1 b n) + partialDot V c 2 b n) + partialDot V c 3 b n)
    + biasArr V c (ix2 0 n)

/-- The same as contents of the output array. -/
abbrev resultArr (c : Dev nD) : Buf (Elt Ideal) ((c : Thread nD τ).loc main_v13) :=
  fun (i : S8192x2048.Idx) => resultAt V c ⟨(i 0).val, idx2_lt0 i⟩ ⟨(i 1).val, idx2_lt1 i⟩

/-- One step's sum over a block is the partial product of the block's contraction range. -/
theorem blockDot_eq (c : Dev nD) (s : Fin cfg1.N) (j : Fin 4) (r q : Fin 256) (b : Fin 8192) (n : Fin 2048)
    (hj : s.val % 4 = j.val) (hb : b.val = 256 * (s.val / 32) + r.val) (hn : n.val = 256 * (s.val / 4 % 8) + q.val) :
    (∑ k : Fin 512, xBlk V c s (ix2 r k) * wBlk V c s (ix2 k q)) = partialDot V c j b n := by
  unfold partialDot
  refine Finset.sum_congr rfl fun k _ => ?_
  rw [xBlk_apply V c s r k (ix2 b (⟨512 * j.val + k.val, by have := j.isLt; have := k.isLt; omega⟩ : Fin 2048)) hb (by show 512 * j.val + k.val = _; rw [hj]),
    wBlk_apply V c s k q (ix2 (⟨512 * j.val + k.val, by have := j.isLt; have := k.isLt; omega⟩ : Fin 2048) n) (by show 512 * j.val + k.val = _; rw [hj]) hn]

/-- WHAT A LAST CONTRACTION STEP STORES at `(r, q)` of its block is the result at the block's entry. -/
theorem stored_apply (c : Dev nD) (t : Fin cfg1.N) (h3 : t.val % 4 = 3) (r q : Fin 256) (b : Fin 8192) (n : Fin 2048)
    (hb : b.val = 256 * (t.val / 32) + r.val) (hn : n.val = 256 * (t.val / 4 % 8) + q.val) :
    k1_pay3 (accAt V c t.val t.isLt) (biasBlk V c t) (ix2 r q) = resultAt V c b n := by
  have hN : t.val < 1024 := lt_of_lt_of_eq t.isLt (show cfg1.N = 1024 from N_1)
  have p1 : t.val - 1 < cfg1.N := lt_of_lt_of_eq (show t.val - 1 < 1024 by omega) N_1.symm
  have p2 : t.val - 1 - 1 < cfg1.N := lt_of_lt_of_eq (show t.val - 1 - 1 < 1024 by omega) N_1.symm
  have p3 : t.val - 1 - 1 - 1 < cfg1.N := lt_of_lt_of_eq (show t.val - 1 - 1 - 1 < 1024 by omega) N_1.symm
  rw [out_apply, accAt_contraction V c t h3 p1 p2 p3, step_apply, step_apply, step_apply, step_apply, zero_apply]
  unfold resultAt
  rw [blockDot_eq V c ⟨t.val - 1 - 1 - 1, p3⟩ 0 r q b n (by show (t.val - 1 - 1 - 1) % 4 = 0; omega) (by show b.val = 256 * ((t.val - 1 - 1 - 1) / 32) + r.val; omega) (by show n.val = 256 * ((t.val - 1 - 1 - 1) / 4 % 8) + q.val; omega),
    blockDot_eq V c ⟨t.val - 1 - 1, p2⟩ 1 r q b n (by show (t.val - 1 - 1) % 4 = 1; omega) (by show b.val = 256 * ((t.val - 1 - 1) / 32) + r.val; omega) (by show n.val = 256 * ((t.val - 1 - 1) / 4 % 8) + q.val; omega),
    blockDot_eq V c ⟨t.val - 1, p1⟩ 2 r q b n (by show (t.val - 1) % 4 = 2; omega) (by show b.val = 256 * ((t.val - 1) / 32) + r.val; omega) (by show n.val = 256 * ((t.val - 1) / 4 % 8) + q.val; omega),
    blockDot_eq V c t 3 r q b n h3 hb hn,
    biasBlk_apply V c t q (ix2 0 n) hn]

/-- WHAT POINT `t` WRITES BACK (a last contraction step) is its block of the result. -/
theorem flushed_eq (c : Dev nD) (t : Fin cfg1.N) (hf : (cfg1.win 3).flush t = true) :
    (dat1 V c).flushed 3 t = ((cfg1.win 3).blk t).view.read (Elt Ideal) (resultArr V c) := by
  have h3 : t.val % 4 = 3 := (flush1_3 t).mp hf
  obtain ⟨e0, e1⟩ := idx_out t
  show (cfg1.win 3).cut (grid1.coords t) ((dat1 V c).after 3 t) = _
  rw [after1_3]
  funext y
  obtain ⟨r, q, rfl⟩ : ∃ (r q : Fin 256), y = ix2 r q := ⟨y 0, y 1, eq_ix2 y⟩
  show k1_pay3 (accAt V c t.val t.isLt) (biasBlk V c t) (ix2 r q) = resultArr V c (((cfg1.win 3).blk t).view.emb (ix2 r q))
  refine stored_apply V c t h3 r q _ _ ?_ ?_
  · show win1_3.index t (0 : Fin 2) * 256 + 1 * r.val = _; rw [e0]; omega
  · show win1_3.index t (1 : Fin 2) * 256 + 1 * q.val = _; rw [e1]; omega

/-- An index of the output array is in point `t`'s block iff each coordinate is in the block's range on its axis. -/
theorem mem_outBlk (t : Fin cfg1.N) (i : S8192x2048.Idx) :
    i ∈ ((cfg1.win 3).blk t).view.set ↔ ∀ a : Fin 2, win1_3.index t a * S256x256.size a ≤ (i a).val ∧ (i a).val < win1_3.index t a * S256x256.size a + S256x256.size a := by
  show i ∈ ((View.whole main_v13).slice (win1_3.rect t)).set ↔ _
  rw [View.set_slice_whole, Rect.mem_set_unit]
  exact Iff.rfl

/-- The blocks written back tile the array: entry `(b, n)` is in the block of the last contraction step of row block
    `b / 256` and column block `n / 256`. -/
theorem out_covered (i : S8192x2048.Idx) :
    ∃ t : Fin cfg1.N, (cfg1.win 3).flush t = true ∧ i ∈ ((cfg1.win 3).blk t).view.set := by
  have hi0 : (i 0).val < 8192 := idx2_lt0 i
  have hi1 : (i 1).val < 2048 := idx2_lt1 i
  have hlt : ((i 0).val / 256 * 8 + (i 1).val / 256) * 4 + 3 < cfg1.N :=
    lt_of_lt_of_eq (show ((i 0).val / 256 * 8 + (i 1).val / 256) * 4 + 3 < 1024 by omega) N_1.symm
  refine ⟨⟨((i 0).val / 256 * 8 + (i 1).val / 256) * 4 + 3, hlt⟩, (flush1_3 _).mpr (by show (((i 0).val / 256 * 8 + (i 1).val / 256) * 4 + 3) % 4 = 3; omega), ?_⟩
  obtain ⟨e0, e1⟩ := idx_out ⟨((i 0).val / 256 * 8 + (i 1).val / 256) * 4 + 3, hlt⟩
  have e0' : win1_3.index ⟨((i 0).val / 256 * 8 + (i 1).val / 256) * 4 + 3, hlt⟩ (0 : Fin 2) = (i 0).val / 256 := by rw [e0]; show (((i 0).val / 256 * 8 + (i 1).val / 256) * 4 + 3) / 32 = _; omega
  have e1' : win1_3.index ⟨((i 0).val / 256 * 8 + (i 1).val / 256) * 4 + 3, hlt⟩ (1 : Fin 2) = (i 1).val / 256 := by rw [e1]; show (((i 0).val / 256 * 8 + (i 1).val / 256) * 4 + 3) / 4 % 8 = _; omega
  rw [mem_outBlk]
  intro a
  match a with
  | ⟨0, _⟩ => show win1_3.index _ (0 : Fin 2) * 256 ≤ (i 0).val ∧ (i 0).val < win1_3.index _ (0 : Fin 2) * 256 + 256; rw [e0']; omega
  | ⟨1, _⟩ => show win1_3.index _ (1 : Fin 2) * 256 ≤ (i 1).val ∧ (i 1).val < win1_3.index _ (1 : Fin 2) * 256 + 256; rw [e1']; omega

/-- THE OUTPUT ARRAY after the region's run is the result. -/
theorem final_out (c : Dev nD) : (dat1 (F := Ideal) V c).arrAt 3 cfg1.N = resultArr V c :=
  (dat1 V c).arrAt_eq_of_cover 3 (resultArr V c) (fun t hf => flushed_eq V c t hf) (out_covered)

/-- Entry by entry. -/
theorem final_out_apply (c : Dev nD) (b : Fin 8192) (n : Fin 2048) :
    (dat1 (F := Ideal) V c).arrAt 3 cfg1.N (ix2 b n) = resultAt V c b n :=
  congrFun (final_out V c) (ix2 b n)

end Result

end Cert.ReferenceIdeal.Hand

end
-- ==== Proof.RefValue.lean ====
/-
  The reference program's result array, at the extended reals, is the layer's function of its arguments.

  Its host operations transpose the weight parameters and sample the bias (RefHost); its first call samples the
  transposed weight entry by entry; its second call, for each block of 256 batch rows and 256 output features, adds
  onto a zero the four products over blocks of 512 input features, then the bias row. The sum over all 2048 features
  is those four block sums added in order onto zero, which is the layer's (∑ₖ x[r, k] · wᵀ[k, n]) + b[n].
-/
import proofs.«182129_g2000205307259551_pallasbulk_1315_2_alg».proof.Proof.Spec
import proofs.«182129_g2000205307259551_pallasbulk_1315_2_alg».proof.Proof.RefHost
import proofs.«182129_g2000205307259551_pallasbulk_1315_2_alg».proof.Proof.RefRun
import proofs.«182129_g2000205307259551_pallasbulk_1315_2_alg».proof.Proof.RefReparam
import proofs.«182129_g2000205307259551_pallasbulk_1315_2_alg».proof.Proof.RefReparamValue
import proofs.«182129_g2000205307259551_pallasbulk_1315_2_alg».proof.Proof.RefMatmul
import proofs.«182129_g2000205307259551_pallasbulk_1315_2_alg».proof.Proof.RefMatmulValue

noncomputable section

namespace Cert.ReferenceIdeal.Hand

open Idealize.ShloMosaic Idealize.ShloMosaic.TcCoe Idealize.SL.Sem
open Cert.ReferenceIdeal Cert.ReferenceIdeal.Gen
open Idealize.ShloMosaic.ValueIdx
open Idealize.ShloMosaic.Pipeline (Dat)

variable (m : (ℓ : Loc nD τ sig) → Buf (Elt Ideal) ℓ) (ρ : Dev nD → PrngReg)

/-- What the first call finds in the TensorCore's buffers: the contents after the last host operation. -/
abbrev entry0 : (c : Dev nD) → (b : Ref sig .tc) → Buf (Elt Ideal) ((c : Thread nD τ).loc b) := fun c b => V10 m c b
/-- The first call's proof data there. -/
abbrev data0 (c : Dev nD) : Dat τ (Elt Ideal) Unit ℕ (UR sig nD τ) ℕ cfg0 c := dat0 (F := Ideal) (entry0 m) c
/-- What the second call finds: the same, with the sampled weight where the first call left it. -/
abbrev entry1 : (c : Dev nD) → (b : Ref sig .tc) → Buf (Elt Ideal) ((c : Thread nD τ).loc b) := fun c b => Ve1 m (data0 m) c b
/-- The second call's proof data there. -/
abbrev data1 (c : Dev nD) : Dat τ (Elt Ideal) Unit ℕ (UR sig nD τ) ℕ cfg1 c := dat1 (F := Ideal) (entry1 m) c

/-- The run, with the result array at what the second call's write-backs leave in it. -/
theorem run_array : θ_run (defs (F := Ideal)) (onTc (τ := τ) (main (F := Ideal))) ⟨m, fun _ => 0, ρ⟩ (fun r => ∀ c : Dev nD,
      r.2.mem ((c.tc : Thread nD τ).loc main_v13) = (data1 m c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_values m ρ (data0 m) (data1 m)
    (fun c w => A_eq0 (entry0 m) c w) (fun c => body_obligation0 (entry0 m) c) (fun _ _ => rfl) (fun _ _ => rfl)
    (fun _ _ => rfl) (fun _ => rfl)
    (fun c w => A_eq1 (entry1 m) c w) (fun c => body_obligation1 (entry1 m) c) (fun c => hin1 (entry1 m) c)
    (fun c => hout1 (entry1 m) c) (fun _ _ => rfl) (fun _ _ => rfl) (fun _ => rfl)

/-- The layer's result from this program's arguments. -/
def resultOf (c : Dev nD) : (⟨2, ![8192, 2048]⟩ : Shape).Idx → EReal :=
  Cert.RandLinear.result (argX m c) (argMu m c) (argLs m c) (argEps m c) (argMuB m c) (argLsB m c) (argEpsB m c)

/-- A buffer the first call does not write is, at the second call's entry, what the host operations left. -/
theorem entry1_keeps (c : Dev nD) (b : Ref sig .tc) (hb : b ∉ ([main_v12] : List (Ref sig .tc))) :
    entry1 m c b = V10 m c b :=
  (congrFun (V11_eq m (data0 m) (data1 m) c) (Proc.devRef .tc b)).symm.trans (V11_of m _ c b hb)

/-- The sampled weight as the second call finds it: what the first call's write-backs left. -/
theorem entry1_weight (c : Dev nD) : entry1 m c main_v12 = (data0 m c).arrAt 3 cfg0.N :=
  Function.update_self _ _ _

/-- The batch, at the second call's entry. -/
theorem x_at (c : Dev nD) (r : Fin 8192) (q : Fin 2048) : xArr (entry1 m) c (ix2 r q) = argX m c r q :=
  (congrFun (entry1_keeps m c main_v5 (by decide)) (ix2 r q)).trans (entry_x m c r q)

/-- The sampled weight, transposed, at the second call's entry: entry (q, n) is μ[n, q] + exp (log σ[n, q]) · ε[n, q]. -/
theorem w_at (c : Dev nD) (q n : Fin 2048) :
    wArr (entry1 m) c (ix2 q n) = Cert.RandLinear.weightT (argMu m c) (argLs m c) (argEps m c) q n := by
  refine (congrFun (entry1_weight m c) (ix2 q n)).trans ((arr12_apply (entry0 m) c q n).trans ?_)
  show _ = argMu m c n q + Ideal.exp (argLs m c n q) * argEps m c n q
  exact congrArg₂ (· + ·) (entry_mu m c q n)
    (congrArg₂ (· * ·) (congrArg Ideal.exp (entry_ls m c q n)) (entry_eps m c q n))

/-- The bias row at the second call's entry. -/
theorem bias_at (c : Dev nD) (n : Fin 2048) :
    biasArr (entry1 m) c (ix2 (0 : Fin 1) n) = Cert.RandLinear.biasOf (argMuB m c) (argLsB m c) (argEpsB m c) n :=
  (congrFun (entry1_keeps m c main_v4 (by decide)) (ix2 (0 : Fin 1) n)).trans (entry_bias m c n)

/-- One block's partial product, in the layer's terms. -/
theorem partialDot_eq (c : Dev nD) (j : Fin 4) (r : Fin 8192) (n : Fin 2048) :
    partialDot (entry1 m) c j r n = ∑ k : Fin 512, argX m c r (Cert.RandLinear.feat j k)
      * Cert.RandLinear.weightT (argMu m c) (argLs m c) (argEps m c) (Cert.RandLinear.feat j k) n :=
  Finset.sum_congr rfl fun k _ => congrArg₂ (· * ·) (x_at m c r (Cert.RandLinear.feat j k)) (w_at m c (Cert.RandLinear.feat j k) n)

/-- Entry (r, n) of what the second call leaves in the result array. -/
theorem result_entry (c : Dev nD) (r : Fin 8192) (n : Fin 2048) :
    (data1 m c).arrAt 3 cfg1.N (ix2 r n) = resultOf m c (ix2 r n) := by
  rw [final_out_apply (entry1 m) c r n]
  unfold resultAt
  rw [partialDot_eq m c 0 r n, partialDot_eq m c 1 r n, partialDot_eq m c 2 r n, partialDot_eq m c 3 r n, bias_at m c n]
  show _ = (∑ k : Fin 2048, argX m c r k * Cert.RandLinear.weightT (argMu m c) (argLs m c) (argEps m c) k n)
      + Cert.RandLinear.biasOf (argMuB m c) (argLsB m c) (argEpsB m c) n
  rw [Cert.RandLinear.sum_eq_blocks fun k => argX m c r k * Cert.RandLinear.weightT (argMu m c) (argLs m c) (argEps m c) k n]

/-- The run: the result array ends at the layer's function of the arguments, and the arguments end as launched. -/
theorem run : θ_run (defs (F := Ideal)) (onTc (τ := τ) (main (F := Ideal))) ⟨m, fun _ => 0, ρ⟩ (fun r => ∀ c : Dev nD,
      r.2.mem ((c.tc : Thread nD τ).loc main_v13) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun _ h c => ⟨(h c).1.trans (funext fun i => by
      obtain ⟨a, b, rfl⟩ : ∃ (a : Fin 8192) (b : Fin 2048), i = ix2 a b := ⟨i 0, i 1, eq_ix2 i⟩
      exact result_entry m c a b), (h c).2⟩) (run_array m ρ)

end Cert.ReferenceIdeal.Hand

end
-- ==== Proof.lean ====
/-
  The certificate of a linear layer with sampled weight and bias, y = x · wᵀ + b with
  w = μ + exp (log σ) · ε and b = μ_b + exp (log σ_b) · ε_b, against its two-pass reference.

  Both programs are read at the extended reals, where every change of float format is the identity. The kernel
  program samples the weight, transposes it, and multiplies each block of batch rows by the whole of wᵀ, adding the
  bias sampled in the same call. The reference transposes the three weight parameters first, samples the weight in one
  call, and in a second call adds, onto a zero, the four partial products over blocks of 512 input features, then the
  bias it sampled beforehand. Entry by entry both are (∑ₖ x[r, k] · w[n, k]) + b[n]: the sum over 2048 features is the
  four block sums added in order onto zero, in any additive commutative monoid, so the infinities need no care and the
  precondition that the inputs are finite is never used.

  The word-level kernel program and its idealization keep their arguments (the generated frames); the idealization
  rewrote nothing, so it is the program's own text read at the extended reals; the reference keeps its arguments as a
  consequence of its value run.
-/
import proofs.«182129_g2000205307259551_pallasbulk_1315_2_alg».proof.Proof.Gen.Kernel
import proofs.«182129_g2000205307259551_pallasbulk_1315_2_alg».proof.Proof.Gen.Kernel.Frame
import proofs.«182129_g2000205307259551_pallasbulk_1315_2_alg».proof.Proof.Gen.KernelIdeal
import proofs.«182129_g2000205307259551_pallasbulk_1315_2_alg».proof.Proof.Gen.KernelIdeal.Frame
import proofs.«182129_g2000205307259551_pallasbulk_1315_2_alg».proof.Proof.Gen.ReferenceIdeal
import proofs.«182129_g2000205307259551_pallasbulk_1315_2_alg».proof.Proof.Gen.ReferenceIdeal.Regions
import proofs.«182129_g2000205307259551_pallasbulk_1315_2_alg».proof.Proof.Gen.Pre_finite_inputs
import proofs.«182129_g2000205307259551_pallasbulk_1315_2_alg».proof.Proof.KernelValue
import proofs.«182129_g2000205307259551_pallasbulk_1315_2_alg».proof.Proof.RefValue
import proofs.«182129_g2000205307259551_pallasbulk_1315_2_alg».proof.Defs
import Idealize.ShloMosaic.Adequacy
import Idealize.ShloMosaic.Init

noncomputable section

namespace Cert.Proof

open Idealize.ShloMosaic Idealize.SL.Sem
open Idealize.ShloMosaic.ValueIdx

/-- From memories that agree on the seven arguments the two programs' result functions are one. -/
theorem result_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Hand.resultOf m' c = Cert.KernelIdeal.Hand.resultOf m c := by
  have e0 : Cert.ReferenceIdeal.Hand.argX m' c = Cert.KernelIdeal.Hand.argX m c :=
    funext fun r => funext fun k => congrFun h0 (ix2 r k)
  have e1 : Cert.ReferenceIdeal.Hand.argMu m' c = Cert.KernelIdeal.Hand.argMu m c :=
    funext fun n => funext fun k => congrFun h1 (ix2 n k)
  have e2 : Cert.ReferenceIdeal.Hand.argLs m' c = Cert.KernelIdeal.Hand.argLs m c :=
    funext fun n => funext fun k => congrFun h2 (ix2 n k)
  have e3 : Cert.ReferenceIdeal.Hand.argEps m' c = Cert.KernelIdeal.Hand.argEps m c :=
    funext fun n => funext fun k => congrFun h3 (ix2 n k)
  have e4 : Cert.ReferenceIdeal.Hand.argMuB m' c = Cert.KernelIdeal.Hand.argMuB m c :=
    funext fun n => congrFun h4 (ix1 n)
  have e5 : Cert.ReferenceIdeal.Hand.argLsB m' c = Cert.KernelIdeal.Hand.argLsB m c :=
    funext fun n => congrFun h5 (ix1 n)
  have e6 : Cert.ReferenceIdeal.Hand.argEpsB m' c = Cert.KernelIdeal.Hand.argEpsB m c :=
    funext fun n => congrFun h6 (ix1 n)
  unfold Cert.ReferenceIdeal.Hand.resultOf Cert.KernelIdeal.Hand.resultOf
  rw [e0, e1, e2, e3, e4, e5, e6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Hand.run m ρ),
  trivial,
  fun m ρ m' ρ' _ hagree => ⟨fun c => Cert.KernelIdeal.Hand.resultOf m c, Cert.KernelIdeal.Hand.run m ρ,
    (θ_run Cert.ReferenceIdeal.defs _ _).mono (fun _ h c => ⟨(h c).1.trans
        (result_agree m m' c (hagree c).1 (hagree c).2.1 (hagree c).2.2.1 (hagree c).2.2.2.1 (hagree c).2.2.2.2.1
          (hagree c).2.2.2.2.2.1 (hagree c).2.2.2.2.2.2), (h c).2⟩)
      (Cert.ReferenceIdeal.Hand.run m' ρ')⟩⟩

end Cert.Proof

end
